-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S65536 : Shape := ⟨1, ![65536]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S65536x1024 .f32) (main_arg1 : IVec S65536 32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_c_0 : IVec S_ 32 := constantI S_ 32 10#32
  let main_v4 : IVec S65536 32 := broadcastInDim S65536 ![] bcast_S_S65536 main_c_0
  let main_v5 : IVec S65536 1 := cmpi .slt main_arg1 main_v4
  let main_c_1 : IVec S_ 1 := constantI S_ 1 1#1
  let main_v6 : IVec S_ 1 := (fun x v => Host.reduce IntOp.andi x v reducesTo_S65536_S_d0 h_S_) main_v5 main_c_1
  let main_v7 : IVec S_ 1 := andi main_v3 main_v6
  main_v7
-- ==== Kernel.lean ====
abbrev S65536x1024 : Shape := ⟨2, ![65536, 1024]⟩
abbrev S65536 : Shape := ⟨1, ![65536]⟩
abbrev S_ : Shape := ⟨0, ![]⟩
abbrev S128 : Shape := ⟨1, ![128]⟩
abbrev S65536x1 : Shape := ⟨2, ![65536, 1]⟩
abbrev S128x1 : Shape := ⟨2, ![128, 1]⟩
abbrev S2x1x1 : Shape := ⟨3, ![2, 1, 1]⟩
abbrev S4096x512 : Shape := ⟨2, ![4096, 512]⟩
abbrev S4096x1 : Shape := ⟨2, ![4096, 1]⟩
abbrev S1x1x1 : Shape := ⟨3, ![1, 1, 1]⟩
abbrev S128x512 : Shape := ⟨2, ![128, 512]⟩
abbrev S4096x128 : Shape := ⟨2, ![4096, 128]⟩
abbrev S1x128x1 : Shape := ⟨3, ![1, 128, 1]⟩
abbrev S1 : Shape := ⟨1, ![1]⟩

abbrev nBuf : Space → Nat
  | .hbm => 13
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S65536, .i32⟩
  | .hbm, ⟨2, _⟩ => ⟨S_, .f32⟩
  | .hbm, ⟨3, _⟩ => ⟨S65536, .f32⟩
  | .hbm, ⟨4, _⟩ => ⟨S_, .f32⟩
  | .hbm, ⟨5, _⟩ => ⟨S128, .f32⟩
  | .hbm, ⟨6, _⟩ => ⟨S65536x1, .i32⟩
  | .hbm, ⟨7, _⟩ => ⟨S128, .f32⟩
  | .hbm, ⟨8, _⟩ => ⟨S128x1, .f32⟩
  | .hbm, ⟨9, _⟩ => ⟨S65536x1, .i32⟩
  | .hbm, ⟨10, _⟩ => ⟨S2x1x1, .f32⟩
  | .hbm, ⟨11, _⟩ => ⟨S_, .f32⟩
  | .hbm, ⟨12, _⟩ => ⟨S_, .f32⟩
  | .local _ .vmem, ⟨0, _⟩ => ⟨S4096x512, .f32⟩
  | .local _ .vmem, ⟨1, _⟩ => ⟨S4096x512, .f32⟩
  | .local _ .vmem, ⟨2, _⟩ => ⟨S4096x1, .i32⟩
  | .local _ .vmem, ⟨3, _⟩ => ⟨S4096x1, .i32⟩
  | .local _ .vmem, ⟨4, _⟩ => ⟨S128x1, .f32⟩
  | .local _ .vmem, ⟨5, _⟩ => ⟨S1x1x1, .f32⟩
  | .local _ .vmem, ⟨6, _⟩ => ⟨S1x1x1, .f32⟩
  | .local _ .vmem, ⟨7, _⟩ => ⟨S128x512, .f32⟩
  | .local _ .vmem, ⟨8, _⟩ => ⟨S128x512, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v26 : BitVec 1 := Scalar.cmpi .eq arg1 c15_i32
  let v27 : BitVec 32 := Scalar.extui v26
  let c0_i32_13 : BitVec 32 := 0#32
  let v28 : BitVec 1 := Scalar.cmpi .ne v27 c0_i32_13
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S65536 : S_.BroadcastsInDim S65536 (![] : Fin 0 → Fin S65536.rank)
  bcast_S_S128 : S_.BroadcastsInDim S128 (![] : Fin 0 → Fin S128.rank)
  bcast_S65536_S65536x1_0 : S65536.BroadcastsInDim S65536x1 (![0] : Fin 1 → Fin S65536x1.rank)
  shapeCasts_S128_S128x1 : S128.ShapeCasts S128x1
  shapeCasts_S65536_S65536x1 : S65536.ShapeCasts S65536x1
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S4096x512_S4096x512_0_0 : ∀ a, (![0, 0] : Fin 2 → Nat) a + S4096x512.size a ≤ S4096x512.size a
  h_S4096x512 : 0 < S4096x512.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  bitsLt_bf16_f32 : FTy.bits .bf16 < FTy.bits .f32
  iota_S4096x128_d1_w32 : S4096x128.Iotas .tc 32 [1]
  broadcasts_S4096x1_S4096x128 : S4096x1.Broadcasts S4096x128
  natLt_1_32 : 1 < 32
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x512 : S128x1.Broadcasts S128x512
  reduces_S128x512_S128 : S128x512.Reduces [1] S128
  shapeCasts_S128x1_S1x128x1 : S128x1.ShapeCasts S1x128x1
  reduces_S1x128x1_S1 : S1x128x1.Reduces [1, 2] S1
  shapeCasts_S1_S1x1x1 : S1.ShapeCasts S1x1x1
  inpos_S1x1x1_p0_0_0 : ∀ a, (![0, 0, 0] : Fin 3 → Nat) a < S1x1x1.size a
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  h_S_ : 0 < S_.numel
  scatter_S128_S65536x1_S65536_n_0_0_1_wf : ScatterDims.WF S128 S65536x1 S65536 [] [0] [0] 1
  dot_S4096x128_S4096x512_S128x512_0_0_1_1_n_n_wf : DotDims.WF S4096x128 S4096x512 S128x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S65536x1024.size a
  hwx0_0 : ∀ i : grid0.Coords, EltTy.bits .f32 = 32 ∨ (Rect.block (s := S65536x1024) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S65536x1.size a
  hwx0_1 : ∀ i : grid0.Coords, EltTy.bits .i32 = 32 ∨ (Rect.block (s := S65536x1) S4096x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

def scatter_S128_S65536x1_S65536_n_0_0_1 : ScatterDims S128 S65536x1 S65536 where
  updateWindowDims := []
  insertedWindowDims := [0]
  scatterDimsToOperandDims := [0]
  indexVectorDim := 1
  wf := scatter_S128_S65536x1_S65536_n_0_0_1_wf
def dot_S4096x128_S4096x512_S128x512_0_0_1_1_n_n : DotDims S4096x128 S4096x512 S128x512 where
  lhsContracting := [0]
  rhsContracting := [0]
  lhsNonContracting := [1]
  rhsNonContracting := [1]
  lhsBatch := []
  rhsBatch := []
  wf := dot_S4096x128_S4096x512_S128x512_0_0_1_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S65536x1024 : Shape := ⟨2, ![65536, 1024]⟩
abbrev S65536 : Shape := ⟨1, ![65536]⟩
abbrev S_ : Shape := ⟨0, ![]⟩
abbrev S10 : Shape := ⟨1, ![10]⟩
abbrev S65536x1 : Shape := ⟨2, ![65536, 1]⟩
abbrev S10x1024 : Shape := ⟨2, ![10, 1024]⟩
abbrev S10x1 : Shape := ⟨2, ![10, 1]⟩

abbrev nBuf : Space → Nat
  | .hbm => 40
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536, .i32⟩
  | .hbm, ⟨2, _⟩ => ⟨S_, .f32⟩
  | .hbm, ⟨3, _⟩ => ⟨S65536, .f32⟩
  | .hbm, ⟨4, _⟩ => ⟨S_, .f32⟩
  | .hbm, ⟨5, _⟩ => ⟨S10, .f32⟩
  | .hbm, ⟨6, _⟩ => ⟨S65536x1, .i32⟩
  | .hbm, ⟨7, _⟩ => ⟨S10, .f32⟩
  | .hbm, ⟨8, _⟩ => ⟨S_, .f32⟩
  | .hbm, ⟨9, _⟩ => ⟨S10, .f32⟩
  | .hbm, ⟨10, _⟩ => ⟨S10, .f32⟩
  | .hbm, ⟨11, _⟩ => ⟨S_, .f32⟩
  | .hbm, ⟨12, _⟩ => ⟨S10x1024, .f32⟩
  | .hbm, ⟨13, _⟩ => ⟨S65536x1, .i32⟩
  | .hbm, ⟨14, _⟩ => ⟨S10x1024, .f32⟩
  | .hbm, ⟨15, _⟩ => ⟨S10x1, .f32⟩
  | .hbm, ⟨16, _⟩ => ⟨S10x1024, .f32⟩
  | .hbm, ⟨17, _⟩ => ⟨S10x1024, .f32⟩
  | .hbm, ⟨18, _⟩ => ⟨S_, .i32⟩
  | .hbm, ⟨19, _⟩ => ⟨S65536, .i32⟩
  | .hbm, ⟨20, _⟩ => ⟨S65536, .i1⟩
  | .hbm, ⟨21, _⟩ => ⟨S_, .i32⟩
  | .hbm, ⟨22, _⟩ => ⟨S65536, .i32⟩
  | .hbm, ⟨23, _⟩ => ⟨S65536, .i32⟩
  | .hbm, ⟨24, _⟩ => ⟨S65536, .i32⟩
  | .hbm, ⟨25, _⟩ => ⟨S65536x1, .i32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S_, .f32⟩
  | .hbm, ⟨30, _⟩ => ⟨S10x1024, .f32⟩
  | .hbm, ⟨31, _⟩ => ⟨S65536x1, .i32⟩
  | .hbm, ⟨32, _⟩ => ⟨S10x1024, .f32⟩
  | .hbm, ⟨33, _⟩ => ⟨S10x1, .f32⟩
  | .hbm, ⟨34, _⟩ => ⟨S10x1024, .f32⟩
  | .hbm, ⟨35, _⟩ => ⟨S10x1024, .f32⟩
  | .hbm, ⟨36, _⟩ => ⟨S_, .f32⟩
  | .hbm, ⟨37, _⟩ => ⟨S10, .f32⟩
  | .hbm, ⟨38, _⟩ => ⟨S_, .f32⟩
  | .hbm, ⟨39, _⟩ => ⟨S_, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S_S10 : S_.BroadcastsInDim S10 (![] : Fin 0 → Fin S10.rank)
  bcast_S65536_S65536x1_0 : S65536.BroadcastsInDim S65536x1 (![0] : Fin 1 → Fin S65536x1.rank)
  bcast_S_S10x1024 : S_.BroadcastsInDim S10x1024 (![] : Fin 0 → Fin S10x1024.rank)
  bcast_S10_S10x1_0 : S10.BroadcastsInDim S10x1 (![0] : Fin 1 → Fin S10x1.rank)
  bcast_S10x1_S10x1024_0_1 : S10x1.BroadcastsInDim S10x1024 (![0, 1] : Fin 2 → Fin S10x1024.rank)
  reducesTo_S10x1024_S10_d1 : S10x1024.ReducesTo [1] S10
  h_S_ : 0 < S_.numel
  reducesTo_S10_S_d0 : S10.ReducesTo [0] S_
  scatter_S10_S65536x1_S65536_n_0_0_1_wf : ScatterDims.WF S10 S65536x1 S65536 [] [0] [0] 1
  scatter_S10x1024_S65536x1_S65536x1024_1_0_0_1_wf : ScatterDims.WF S10x1024 S65536x1 S65536x1024 [1] [0] [0] 1
  gather_S10x1024_S65536x1_S65536x1024_1_0_n_n_0_1_11024_wf : GatherDims.WF S10x1024 S65536x1 S65536x1024 [1] [0] [] [0] [] 1 ![1, 1024]

variable [Facts₀]

def scatter_S10_S65536x1_S65536_n_0_0_1 : ScatterDims S10 S65536x1 S65536 where
  updateWindowDims := []
  insertedWindowDims := [0]
  scatterDimsToOperandDims := [0]
  indexVectorDim := 1
  wf := scatter_S10_S65536x1_S65536_n_0_0_1_wf
def scatter_S10x1024_S65536x1_S65536x1024_1_0_0_1 : ScatterDims S10x1024 S65536x1 S65536x1024 where
  updateWindowDims := [1]
  insertedWindowDims := [0]
  scatterDimsToOperandDims := [0]
  indexVectorDim := 1
  wf := scatter_S10x1024_S65536x1_S65536x1024_1_0_0_1_wf
def gather_S10x1024_S65536x1_S65536x1024_1_0_n_n_0_1_11024 : GatherDims S10x1024 S65536x1 S65536x1024 where
  offsetDims := [1]
  collapsedSliceDims := [0]
  operandBatchingDims := []
  startIndicesBatchingDims := []
  startIndexMap := [0]
  indexVectorDim := 1
  sliceSizes := ![1, 1024]
  wf := gather_S10x1024_S65536x1_S65536x1024_1_0_n_n_0_1_11024_wf

class Facts : Prop extends Facts₀ where

variable [Facts]
-- ==== Proof.Spec.lean ====
/-
  What the two programs compute, as functions of the feature matrix and the label vector.

  There are 65536 samples with 1024 features each, and every sample carries a label word. Sample `n` BELONGS to class
  `c` when its label, read as a signed integer, is `c`. For a class `c` and a feature `d` write

    count c          the number of members of `c`,
    denom c          max (count c) 1          (so that an empty class divides by one),
    total c d        the sum of feature `d` over the members of `c`,
    totalSq c d      the sum of the squares of feature `d` over the members of `c`.

  One program works with 128 classes, feature tile by feature tile (two tiles of 512 features), and adds up, over
  classes and features, the CLAMPED difference

    max (totalSq c d / denom c - (total c d / denom c)², 0)                                         (`clampedSpread`).

  The other works with 10 classes and adds up, over classes and features, the mean CENTRED square

    (sum over the members n of c of (x n d - total c d / denom c)²) / denom c                       (`centredSpread`).

  Over real features the two agree class by class: for a class of k ≥ 1 members with total S and total of squares Q,
  the centred squares add up to Q - S²/k, so their mean is Q/k - (S/k)², which is ≥ 0 and is left alone by the clamp;
  an empty class gives 0 both ways. The 118 extra classes contribute nothing exactly when no label is one of them.
  All of this is written on the extended reals with the quotient `Ideal.div`, as the programs have it; nothing here is
  proved, the module only fixes the two functions.
-/
import Idealize.ShloMosaic.PureOps.Ideal
import Idealize.ShloMosaic.Lib.ValueIdx

noncomputable section

open scoped BigOperators

namespace ClassSpread

open Idealize.ShloMosaic Idealize.ShloMosaic.ValueIdx

/-- The feature matrix's shape: samples by features. -/
abbrev SX : Shape := ⟨2, ![65536, 1024]⟩
/-- The label vector's shape. -/
abbrev SL : Shape := ⟨1, ![65536]⟩

variable (x : SX.Idx → EReal) (lbl : SL.Idx → BitVec 32)

/-- The members of class `c`: the samples whose label, read signed, is `c`. -/
def members (c : ℕ) : Finset (Fin 65536) :=
  Finset.univ.filter fun n => (lbl (ix1 n)).toInt = (c : ℤ)

/-- How many members class `c` has, as an extended real. -/
def count (c : ℕ) : EReal := ∑ _n ∈ members lbl c, (1 : EReal)

/-- The divisor of class `c`: its count, or one when it is empty. -/
def denom (c : ℕ) : EReal := max (count lbl c) 1

/-- Feature `d` added up over the members of class `c`. -/
def total (c : ℕ) (d : Fin 1024) : EReal := ∑ n ∈ members lbl c, x (ix2 n d)

/-- The square of feature `d` added up over the members of class `c`. -/
def totalSq (c : ℕ) (d : Fin 1024) : EReal := ∑ n ∈ members lbl c, x (ix2 n d) * x (ix2 n d)

/-- Feature `d` of feature tile `t` (tiles of 512 features). -/
def col (t : Fin 2) (d : Fin 512) : Fin 1024 := ⟨512 * t.val + d.val, by omega⟩

/-- Mean of squares minus square of mean, for class `c` and feature `d`, clamped below at zero. -/
def clampedTerm (c : ℕ) (d : Fin 1024) : EReal :=
  max (Ideal.div (totalSq x lbl c d) (denom lbl c)
        - Ideal.div (total x lbl c d) (denom lbl c) * Ideal.div (total x lbl c d) (denom lbl c)) 0

/-- The clamped terms added up over 128 classes, tile by tile. -/
def clampedSpread : EReal :=
  ∑ t : Fin 2, ∑ c : Fin 128, ∑ d : Fin 512, clampedTerm x lbl c.val (col t d)

/-- The mean over class `c` of the squared distance of feature `d` from the class mean. -/
def centredTerm (c : ℕ) (d : Fin 1024) : EReal :=
  Ideal.div
    (∑ n ∈ members lbl c,
      (x (ix2 n d) - Ideal.div (total x lbl c d) (denom lbl c))
        * (x (ix2 n d) - Ideal.div (total x lbl c d) (denom lbl c)))
    (denom lbl c)

/-- The centred terms added up over 10 classes and all features. -/
def centredSpread : EReal :=
  ∑ c : Fin 10, ∑ d : Fin 1024, centredTerm x lbl c.val d

end ClassSpread

end
-- ==== Proof.Variance.lean ====
/-
  Mean of squares minus square of mean is the mean centred square.

  Take finitely many real numbers f n, n in s, with k = max (number of them) 1, S their sum and Q the sum of their
  squares. If s is empty all three sums are 0 and both sides below are 0. Otherwise k is the number of terms and

      sum over n of (f n - S/k)²  =  Q - 2 (S/k) S + k (S/k)²  =  Q - S²/k,

  so the mean centred square is Q/k - (S/k)²; being a mean of squares it is ≥ 0, and clamping it below at 0 changes
  nothing. The statement is on the extended reals with the quotient `Ideal.div`, because that is how the two programs
  compute it; every number in it is a real, and the proof goes through the reals.
-/
import Idealize.ShloMosaic.PureOps.Ideal
import Mathlib.Data.EReal.Operations
import Mathlib.Data.EReal.Inv
import Mathlib.Algebra.BigOperators.Group.Finset.Basic
import Mathlib.Algebra.BigOperators.Ring.Finset
import Mathlib.Algebra.Order.BigOperators.Ring.Finset
import Mathlib.Tactic.Ring
import Mathlib.Tactic.Positivity
import Mathlib.Tactic.FieldSimp

noncomputable section

open scoped BigOperators

namespace ClassSpread.Variance

open Idealize.ShloMosaic

/-- A finite sum of coerced reals is the coerced real sum. -/
private theorem coe_sum {ι : Type} (s : Finset ι) (g : ι → ℝ) :
    (∑ n ∈ s, (g n : EReal)) = ((∑ n ∈ s, g n : ℝ) : EReal) := by
  classical
  induction s using Finset.induction_on with
  | empty => simp
  | insert a s ha ih => rw [Finset.sum_insert ha, Finset.sum_insert ha, ih, EReal.coe_add]

/-- The larger of two coerced reals is the coerced larger real. -/
private theorem coe_max' (a b : ℝ) : max (a : EReal) (b : EReal) = ((max a b : ℝ) : EReal) :=
  (EReal.coe_strictMono.monotone.map_max).symm

/-- The real identity: with k = max (number of terms) 1 and m = S / k, the clamped Q / k - m² is the mean of the
centred squares. -/
private theorem real_identity {ι : Type} (s : Finset ι) (f : ι → ℝ) (k m : ℝ)
    (hk : k = max (s.card : ℝ) 1) (hm : m = (∑ n ∈ s, f n) * (1 / k)) :
    max ((∑ n ∈ s, f n * f n) * (1 / k) - m * m) 0
      = (∑ n ∈ s, (f n - m) * (f n - m)) * (1 / k) := by
  have hk1 : (1 : ℝ) ≤ k := hk ▸ le_max_right _ _
  have hkpos : 0 < k := lt_of_lt_of_le one_pos hk1
  have hk0 : k ≠ 0 := ne_of_gt hkpos
  have hS : (∑ n ∈ s, f n) = k * m := by rw [hm]; field_simp
  -- either there is no term and m = 0, or k is the number of terms
  have hcm : (s.card : ℝ) * m = k * m := by
    rcases s.eq_empty_or_nonempty with he | hne
    · have h0 : m = 0 := by rw [hm, he]; simp
      rw [h0]; simp
    · have h1 : (1 : ℝ) ≤ s.card := by exact_mod_cast hne.card_pos
      rw [hk, max_eq_left h1]
  have hC : (∑ n ∈ s, (f n - m) * (f n - m))
      = (∑ n ∈ s, f n * f n) - 2 * m * (∑ n ∈ s, f n) + (s.card : ℝ) * m * m := by
    have hexp : ∀ n, (f n - m) * (f n - m) = f n * f n - 2 * m * f n + m * m := fun n => by ring
    simp only [hexp, Finset.sum_add_distrib, Finset.sum_sub_distrib, ← Finset.mul_sum, Finset.sum_const,
      nsmul_eq_mul]
    ring
  have hval : (∑ n ∈ s, (f n - m) * (f n - m)) * (1 / k) = (∑ n ∈ s, f n * f n) * (1 / k) - m * m := by
    rw [hC, show (s.card : ℝ) * m * m = ((s.card : ℝ) * m) * m by ring, hcm, hS]
    field_simp
    ring
  rw [← hval]
  apply max_eq_left
  apply mul_nonneg
  · exact Finset.sum_nonneg (fun n _ => mul_self_nonneg _)
  · exact (one_div_pos.mpr hkpos).le

/-- The clamped "mean of squares minus square of mean" of finitely many reals is their mean centred square. -/
theorem clamped_eq_centred {ι : Type} (s : Finset ι) (f : ι → ℝ) :
    max (Ideal.div (∑ n ∈ s, (f n : EReal) * (f n : EReal)) (max (∑ _n ∈ s, (1 : EReal)) 1)
          - Ideal.div (∑ n ∈ s, (f n : EReal)) (max (∑ _n ∈ s, (1 : EReal)) 1)
            * Ideal.div (∑ n ∈ s, (f n : EReal)) (max (∑ _n ∈ s, (1 : EReal)) 1)) 0
      = Ideal.div
          (∑ n ∈ s, ((f n : EReal) - Ideal.div (∑ n ∈ s, (f n : EReal)) (max (∑ _n ∈ s, (1 : EReal)) 1))
                    * ((f n : EReal) - Ideal.div (∑ n ∈ s, (f n : EReal)) (max (∑ _n ∈ s, (1 : EReal)) 1)))
          (max (∑ _n ∈ s, (1 : EReal)) 1) := by
  -- the divisor is the real k = max (number of terms) 1, which is not 0
  have hone : (∑ _n ∈ s, (1 : EReal)) = ((s.card : ℝ) : EReal) := by
    have h : (∑ _n ∈ s, ((1 : ℝ) : EReal)) = ((∑ _n ∈ s, (1 : ℝ) : ℝ) : EReal) := coe_sum s (fun _ => (1 : ℝ))
    rw [EReal.coe_one] at h
    rw [h]
    simp
  have hden : max (∑ _n ∈ s, (1 : EReal)) 1 = ((max (s.card : ℝ) 1 : ℝ) : EReal) := by
    rw [hone, ← coe_max', EReal.coe_one]
  have hk0 : max (s.card : ℝ) 1 ≠ 0 := ne_of_gt (lt_of_lt_of_le one_pos (le_max_right _ _))
  -- the two sums are coerced real sums
  have hS : (∑ n ∈ s, (f n : EReal)) = ((∑ n ∈ s, f n : ℝ) : EReal) := coe_sum s f
  have hQ : (∑ n ∈ s, (f n : EReal) * (f n : EReal)) = ((∑ n ∈ s, f n * f n : ℝ) : EReal) := by
    simp only [← EReal.coe_mul]
    exact coe_sum s (fun n => f n * f n)
  rw [hden, hS, hQ]
  simp only [Ideal.div_coe hk0, ← EReal.coe_mul, ← EReal.coe_sub]
  rw [coe_sum s (fun n => (f n - (∑ n ∈ s, f n) * (1 / max (s.card : ℝ) 1))
      * (f n - (∑ n ∈ s, f n) * (1 / max (s.card : ℝ) 1)))]
  rw [← EReal.coe_mul, ← EReal.coe_zero, coe_max']
  exact congrArg _ (real_identity s f _ _ rfl rfl)

end ClassSpread.Variance

end
-- ==== Proof.Bridge.lean ====
/-
  The two spreads agree when every feature is a real number and no label is 10 or more.

  Class by class and feature by feature the clamped term is the centred term (the identity of
  Variance.lean, applied to the members of the class). A class numbered 10 to 127 has no member when every label is
  below 10, so its clamped term is max (0/1 - (0/1)², 0) = 0. What remains of the 128-class sum is the 10-class
  sum, and the two tiles of 512 features are the 1024 features.
-/
import proofs.«416717_j18863496364161_3_alg».proof.Proof.Spec
import proofs.«416717_j18863496364161_3_alg».proof.Proof.Variance

noncomputable section

open scoped BigOperators

namespace ClassSpread

open Idealize.ShloMosaic Idealize.ShloMosaic.ValueIdx

/-- Over real features the clamped term of a class and a feature is its centred term. -/
private theorem term_eq (x : SX.Idx → EReal) (lbl : SL.Idx → BitVec 32) (xr : SX.Idx → ℝ)
    (hxr : ∀ i, x i = (xr i : EReal)) (c : ℕ) (d : Fin 1024) :
    clampedTerm x lbl c d = centredTerm x lbl c d := by
  unfold clampedTerm centredTerm total totalSq denom count
  simp only [hxr]
  exact Variance.clamped_eq_centred (members lbl c) (fun n => xr (ix2 n d))

/-- When every label is below 10, a class numbered 10 or more has no member. -/
private theorem members_empty (lbl : SL.Idx → BitVec 32)
    (hl : ∀ n : Fin 65536, (lbl (ix1 n)).toInt < 10) (c : ℕ) (hc : 10 ≤ c) :
    members lbl c = ∅ := by
  unfold members
  apply Finset.filter_eq_empty_iff.mpr
  intro n _ h
  have h10 := hl n
  omega

/-- The centred term of a class without members is 0 / 1 = 0. -/
private theorem centredTerm_empty (x : SX.Idx → EReal) (lbl : SL.Idx → BitVec 32) (c : ℕ) (d : Fin 1024)
    (h : members lbl c = ∅) : centredTerm x lbl c d = 0 := by
  unfold centredTerm total denom count
  rw [h]
  simp only [Finset.sum_empty]
  rw [max_eq_right zero_le_one, Ideal.div, if_neg one_ne_zero, zero_mul]

/-- The two tiles of 512 features are the 1024 features. -/
private theorem sum_tiles (g : Fin 1024 → EReal) :
    ∑ t : Fin 2, ∑ d : Fin 512, g (col t d) = ∑ d' : Fin 1024, g d' := by
  have h : ∑ d' : Fin 1024, g d'
      = ∑ i : Fin 512, g (Fin.castAdd 512 i) + ∑ i : Fin 512, g (Fin.natAdd 512 i) :=
    Fin.sum_univ_add (a := 512) (b := 512) g
  rw [h, Fin.sum_univ_two]
  rfl

/-- Real features, labels below 10: the clamped 128-class spread is the centred 10-class spread. -/
theorem spreads_agree (x : SX.Idx → EReal) (lbl : SL.Idx → BitVec 32)
    (hx : ∀ i, ∃ r : ℝ, x i = (r : EReal))
    (hl : ∀ n : Fin 65536, (lbl (ix1 n)).toInt < 10) :
    clampedSpread x lbl = centredSpread x lbl := by
  choose xr hxr using hx
  unfold clampedSpread centredSpread
  simp only [term_eq x lbl xr hxr]
  -- the two tiles of 512 features are the 1024 features
  have h1 : ∑ t : Fin 2, ∑ c : Fin 128, ∑ d : Fin 512, centredTerm x lbl c.val (col t d)
      = ∑ c : Fin 128, ∑ d' : Fin 1024, centredTerm x lbl c.val d' := by
    rw [Finset.sum_comm]
    exact Finset.sum_congr rfl (fun c _ => sum_tiles (fun d' => centredTerm x lbl c.val d'))
  rw [h1]
  -- the 128 classes are the first 10 and 118 more
  have h2 : ∑ c : Fin 128, ∑ d' : Fin 1024, centredTerm x lbl c.val d'
      = ∑ i : Fin 10, (∑ d' : Fin 1024, centredTerm x lbl (Fin.castAdd 118 i).val d')
        + ∑ i : Fin 118, (∑ d' : Fin 1024, centredTerm x lbl (Fin.natAdd 10 i).val d') :=
    Fin.sum_univ_add (a := 10) (b := 118) (fun c : Fin 128 => ∑ d' : Fin 1024, centredTerm x lbl c.val d')
  rw [h2]
  -- the 118 more have no member
  have h3 : ∑ i : Fin 118, (∑ d' : Fin 1024, centredTerm x lbl (Fin.natAdd 10 i).val d') = 0 := by
    apply Finset.sum_eq_zero
    intro i _
    apply Finset.sum_eq_zero
    intro d _
    exact centredTerm_empty x lbl _ d (members_empty lbl hl _ (by simp))
  rw [h3, add_zero]
  rfl

end ClassSpread

end
-- ==== Proof.Domain.lean ====
/-
  What the precondition says about the inputs.

  The precondition is the conjunction of two "for all": every feature's absolute value is below +∞, and every label
  is below 10 as a signed integer. An extended real whose absolute value is below +∞ is neither infinity, so it is a
  real number.
-/
import proofs.«416717_j18863496364161_3_alg».proof.Pre_finite_inputs
import proofs.«416717_j18863496364161_3_alg».proof.Proof.Gen.Pre_finite_inputs
import Idealize.ShloMosaic.Lib.ReduceAll
import Idealize.ShloMosaic.Lib.ValueIdx

noncomputable section

namespace ClassSpread.Domain

open Idealize.ShloMosaic Idealize.ShloMosaic.ValueIdx

/-- The scalar shape has exactly one index. -/
private instance : Subsingleton Cert.Pre_finite_inputs.S_.Idx := ⟨fun a b => funext fun d => d.elim0⟩

/-- The f32 pattern with all exponent bits set, sign and fraction clear, denotes +∞. -/
private theorem ofBits_inf : Ideal.ofBits .f32 0x7F800000#32 = (⊤ : EReal) := by
  simp [Ideal.ofBits, Ideal.ieee]

/-- A one-bit word made from a Boolean is 1 exactly when the Boolean is true. -/
private theorem ofBool_eq_one {b : Bool} : BitVec.ofBool b = 1#1 ↔ b = true := by cases b <;> decide

/-- An extended real whose absolute value max a (-a) is below +∞ is neither infinity: it is a real number. -/
private theorem real_of_abs_lt_top (a : EReal) (h : max a (-a) < ⊤) : ∃ r : ℝ, a = (r : EReal) := by
  induction a using EReal.rec with
  | bot => simp at h
  | top => simp at h
  | coe r => exact ⟨r, rfl⟩

/-- Under the precondition every feature is a real number and every label is below 10. -/
theorem of_pre (x : FVec Ideal Cert.Pre_finite_inputs.S65536x1024 .f32) (lbl : IVec Cert.Pre_finite_inputs.S65536 32)
    (h : Cert.Pre_finite_inputs.fn (F := Ideal) x lbl = fun _ => 1#1) :
    (∀ i, ∃ r : ℝ, (x i : EReal) = (r : EReal)) ∧ ∀ n : Fin 65536, (lbl (ix1 n)).toInt < 10 := by
  -- the precondition at its one index: the conjunction of the two and-reductions is 1, so each is 1
  have h0 := congrFun h ValueIdx.ix0
  dsimp only [Cert.Pre_finite_inputs.fn] at h0
  obtain ⟨h3, h6⟩ := IntOp.andi_eq_one.1 h0
  constructor
  · -- every element of the first reduction is 1: |x i| < +∞ at every index
    intro i
    have e : Ideal.cmp .olt (max (x i) (-(x i))) (Ideal.ofBits .f32 0x7F800000#32) = 1#1 :=
      Host.reduce_andi_all _ _ _ _ _ h3 i
    rw [ofBits_inf] at e
    exact real_of_abs_lt_top (x i) (of_decide_eq_true (ofBool_eq_one.1 e))
  · -- every element of the second reduction is 1: label n is below 10 as a signed word
    intro n
    have e : IntOp.cmpi .slt (lbl (ix1 n)) 10#32 = 1#1 := Host.reduce_andi_all _ _ _ _ _ h6 (ix1 n)
    have := IntOp.cmpi_slt.1 e
    rwa [show (10#32 : BitVec 32).toInt = 10 from by decide] at this

end ClassSpread.Domain

end
-- ==== Proof.Landing.lean ====
/-
  Where a scattered update lands, and which row a gathered slice comes from.

  A label column `idx` of shape [N, 1] drives three host operations.
  * Adding N scalar updates into a vector of C entries: update `n` is added to entry `c` exactly when label `n`, read
    as a signed integer, is `c`; a label outside [0, C) is dropped. So entry `c` ends as its old value plus the sum
    of the updates of the samples labelled `c`.
  * Adding N row updates of width D into a C × D table: the same, column by column.
  * Gathering one row of a C × D table per sample: sample `n` reads the row whose number is its label read signed,
    brought into [0, C - 1] (a negative label reads row 0, a label ≥ C reads row C - 1).
-/
import Idealize.ShloMosaic.PureOps.Ideal
import Idealize.ShloMosaic.Lib.ValueIdx

noncomputable section

open scoped BigOperators

namespace ClassSpread.Landing

open Idealize.ShloMosaic Idealize.ShloMosaic.ValueIdx

/-- With no window axes and operand axis 0 named by the one-component index vector, the start on axis 0 for update
    `j` is the label of sample `j 0`, read signed. -/
private theorem scalar_start {C N w : Nat}
    (d : ScatterDims ⟨1, ![C]⟩ ⟨2, ![N, 1]⟩ ⟨1, ![N]⟩)
    (h1 : d.updateWindowDims = []) (h2 : d.insertedWindowDims = [0])
    (h3 : d.scatterDimsToOperandDims = [0]) (h4 : d.indexVectorDim = 1)
    (idx : IVec ⟨2, ![N, 1]⟩ w) (j : (⟨1, ![N]⟩ : Shape).Idx) :
    d.start j idx 0 = (idx (ix2 (j 0) (0 : Fin 1))).toInt := by
  obtain ⟨uw, iw, sd, iv, wf⟩ := d
  simp only at h1 h2 h3 h4
  subst h1 h2 h3 h4
  unfold ScatterDims.start
  rw [dif_pos (List.mem_singleton.mpr rfl)]
  congr 2
  funext b; refine Fin.ext ?_
  match b with
  | ⟨0, _⟩ => rfl
  | ⟨1, _⟩ => rfl

/-- Axis 0 of the operand is inserted, so the window coordinate there is 0. -/
private theorem scalar_window {C N : Nat}
    (d : ScatterDims ⟨1, ![C]⟩ ⟨2, ![N, 1]⟩ ⟨1, ![N]⟩)
    (h1 : d.updateWindowDims = []) (h2 : d.insertedWindowDims = [0])
    (h3 : d.scatterDimsToOperandDims = [0]) (h4 : d.indexVectorDim = 1)
    (j : (⟨1, ![N]⟩ : Shape).Idx) :
    d.window j 0 = 0 := by
  obtain ⟨uw, iw, sd, iv, wf⟩ := d
  simp only at h1 h2 h3 h4
  subst h1 h2 h3 h4
  unfold ScatterDims.window
  rw [dif_neg]
  show (0 : Fin 1) ∉ (List.finRange 1).filter (· ∉ [0])
  decide

/-- Update `j` lands on entry `c` exactly when the label of sample `j 0`, read signed, is `c`. -/
private theorem scalar_resultIdx_iff {C N w : Nat}
    (d : ScatterDims ⟨1, ![C]⟩ ⟨2, ![N, 1]⟩ ⟨1, ![N]⟩)
    (h1 : d.updateWindowDims = []) (h2 : d.insertedWindowDims = [0])
    (h3 : d.scatterDimsToOperandDims = [0]) (h4 : d.indexVectorDim = 1)
    (idx : IVec ⟨2, ![N, 1]⟩ w) (j : (⟨1, ![N]⟩ : Shape).Idx) (c : Fin C) :
    d.resultIdx? j idx = some (ix1 c) ↔ (idx (ix2 (j 0) (0 : Fin 1))).toInt = (c.val : ℤ) := by
  have hs := scalar_start d h1 h2 h3 h4 idx j
  have hw := scalar_window d h1 h2 h3 h4 j
  have hc := c.isLt
  have hsz : (⟨1, ![C]⟩ : Shape).size 0 = C := rfl
  unfold ScatterDims.resultIdx?
  split
  · rename_i h
    have h0 := h 0
    rw [hs, hw, hsz] at h0
    rw [Option.some.injEq]
    constructor
    · intro hf
      have := congrArg (fun f => (f 0).val) hf
      simp only [hs, hw] at this
      change _ = c.val at this
      omega
    · intro he
      funext a
      obtain rfl : a = 0 := Subsingleton.elim _ _
      refine Fin.ext ?_
      show (d.start j idx 0 + ((d.window j 0 : Nat) : Int)).toNat = c.val
      rw [hs, hw]; omega
  · rename_i h
    constructor
    · intro hf; exact absurd hf (by simp)
    · intro he
      exfalso; apply h
      intro a
      obtain rfl : a = 0 := Subsingleton.elim _ _
      rw [hs, hw, hsz]
      omega

/-- Scalar updates added by label: entry `c` gains the updates of the samples whose label is `c`. -/
theorem scatterAdd_scalar_apply {C N w : Nat}
    (d : ScatterDims ⟨1, ![C]⟩ ⟨2, ![N, 1]⟩ ⟨1, ![N]⟩)
    (h1 : d.updateWindowDims = []) (h2 : d.insertedWindowDims = [0])
    (h3 : d.scatterDimsToOperandDims = [0]) (h4 : d.indexVectorDim = 1)
    (x : (⟨1, ![C]⟩ : Shape).Idx → EReal) (idx : IVec ⟨2, ![N, 1]⟩ w)
    (upd : (⟨1, ![N]⟩ : Shape).Idx → EReal) (c : Fin C) :
    Ideal.hostScatterAdd d x idx upd (ix1 c)
      = x (ix1 c) + ∑ n ∈ Finset.univ.filter (fun n : Fin N => (idx (ix2 n (0 : Fin 1))).toInt = (c.val : ℤ)),
          upd (ix1 n) := by
  unfold Ideal.hostScatterAdd
  congr 1
  -- the update indices are the samples: re-index the sum by the one coordinate
  refine Finset.sum_nbij' (fun j => (j 0 : Fin N)) (fun n => ix1 n) ?_ ?_ ?_ ?_ ?_
  · intro j hj
    exact Finset.mem_filter.2 ⟨Finset.mem_univ _,
      (scalar_resultIdx_iff d h1 h2 h3 h4 idx j c).1 (Finset.mem_filter.1 hj).2⟩
  · intro n hn
    exact Finset.mem_filter.2 ⟨Finset.mem_univ _,
      (scalar_resultIdx_iff d h1 h2 h3 h4 idx (ix1 n) c).2 (Finset.mem_filter.1 hn).2⟩
  · intro j _; exact (eq_ix1 j).symm
  · intro n _; rfl
  · intro j _; exact congrArg upd (eq_ix1 j)

/-- With one window axis and operand axis 0 named by the one-component index vector, the start on axis 0 for update
    `j` is the label of sample `j 0`, read signed. -/
private theorem row_start0 {C D N w : Nat}
    (d : ScatterDims ⟨2, ![C, D]⟩ ⟨2, ![N, 1]⟩ ⟨2, ![N, D]⟩)
    (h1 : d.updateWindowDims = [1]) (h2 : d.insertedWindowDims = [0])
    (h3 : d.scatterDimsToOperandDims = [0]) (h4 : d.indexVectorDim = 1)
    (idx : IVec ⟨2, ![N, 1]⟩ w) (j : (⟨2, ![N, D]⟩ : Shape).Idx) :
    d.start j idx 0 = (idx (ix2 (j 0 : Fin N) (0 : Fin 1))).toInt := by
  obtain ⟨uw, iw, sd, iv, wf⟩ := d
  simp only at h1 h2 h3 h4
  subst h1 h2 h3 h4
  unfold ScatterDims.start
  rw [dif_pos (List.mem_singleton.mpr rfl)]
  congr 2
  funext b; refine Fin.ext ?_
  match b with
  | ⟨0, _⟩ => rfl
  | ⟨1, _⟩ => rfl

/-- Axis 1 of the operand is not named by the index vector: its start is 0. -/
private theorem row_start1 {C D N w : Nat}
    (d : ScatterDims ⟨2, ![C, D]⟩ ⟨2, ![N, 1]⟩ ⟨2, ![N, D]⟩)
    (h1 : d.updateWindowDims = [1]) (h2 : d.insertedWindowDims = [0])
    (h3 : d.scatterDimsToOperandDims = [0]) (h4 : d.indexVectorDim = 1)
    (idx : IVec ⟨2, ![N, 1]⟩ w) (j : (⟨2, ![N, D]⟩ : Shape).Idx) :
    d.start j idx 1 = 0 := by
  obtain ⟨uw, iw, sd, iv, wf⟩ := d
  simp only at h1 h2 h3 h4
  subst h1 h2 h3 h4
  unfold ScatterDims.start
  rw [dif_neg]
  show (1 : Fin 2) ∉ [(0 : Fin 2)]
  decide

/-- Axis 0 of the operand is inserted: the window coordinate there is 0. -/
private theorem row_window0 {C D N : Nat}
    (d : ScatterDims ⟨2, ![C, D]⟩ ⟨2, ![N, 1]⟩ ⟨2, ![N, D]⟩)
    (h1 : d.updateWindowDims = [1]) (h2 : d.insertedWindowDims = [0])
    (h3 : d.scatterDimsToOperandDims = [0]) (h4 : d.indexVectorDim = 1)
    (j : (⟨2, ![N, D]⟩ : Shape).Idx) :
    d.window j 0 = 0 := by
  obtain ⟨uw, iw, sd, iv, wf⟩ := d
  simp only at h1 h2 h3 h4
  subst h1 h2 h3 h4
  unfold ScatterDims.window
  rw [dif_neg]
  show (0 : Fin 2) ∉ (List.finRange 2).filter (· ∉ [(0 : Fin 2)])
  decide

/-- Axis 1 of the operand is the one kept axis: its window coordinate is the update's column. -/
private theorem row_window1 {C D N : Nat}
    (d : ScatterDims ⟨2, ![C, D]⟩ ⟨2, ![N, 1]⟩ ⟨2, ![N, D]⟩)
    (h1 : d.updateWindowDims = [1]) (h2 : d.insertedWindowDims = [0])
    (h3 : d.scatterDimsToOperandDims = [0]) (h4 : d.indexVectorDim = 1)
    (j : (⟨2, ![N, D]⟩ : Shape).Idx) :
    d.window j 1 = (j 1).val := by
  obtain ⟨uw, iw, sd, iv, wf⟩ := d
  simp only at h1 h2 h3 h4
  subst h1 h2 h3 h4
  unfold ScatterDims.window
  rw [dif_pos]
  · rfl
  · show (1 : Fin 2) ∈ (List.finRange 2).filter (· ∉ [(0 : Fin 2)])
    decide

/-- Update `j` lands on entry `(c, e)` exactly when the label of sample `j 0`, read signed, is `c` and the update's
    column is `e`. -/
private theorem row_resultIdx_iff {C D N w : Nat}
    (d : ScatterDims ⟨2, ![C, D]⟩ ⟨2, ![N, 1]⟩ ⟨2, ![N, D]⟩)
    (h1 : d.updateWindowDims = [1]) (h2 : d.insertedWindowDims = [0])
    (h3 : d.scatterDimsToOperandDims = [0]) (h4 : d.indexVectorDim = 1)
    (idx : IVec ⟨2, ![N, 1]⟩ w) (j : (⟨2, ![N, D]⟩ : Shape).Idx) (c : Fin C) (e : Fin D) :
    d.resultIdx? j idx = some (ix2 c e) ↔
      (idx (ix2 (j 0 : Fin N) (0 : Fin 1))).toInt = (c.val : ℤ) ∧ (j 1 : Fin D) = e := by
  have hs0 := row_start0 d h1 h2 h3 h4 idx j
  have hs1 := row_start1 d h1 h2 h3 h4 idx j
  have hw0 := row_window0 d h1 h2 h3 h4 j
  have hw1 := row_window1 d h1 h2 h3 h4 j
  have hc := c.isLt
  have he := e.isLt
  have hj1 : (j 1).val < D := idx2_lt1 j
  have hsz0 : (⟨2, ![C, D]⟩ : Shape).size 0 = C := rfl
  have hsz1 : (⟨2, ![C, D]⟩ : Shape).size 1 = D := rfl
  unfold ScatterDims.resultIdx?
  split
  · rename_i h
    have h0 := h 0
    rw [hs0, hw0, hsz0] at h0
    rw [Option.some.injEq]
    constructor
    · intro hf
      have e0 := congrArg (fun f => (f 0).val) hf
      have e1 := congrArg (fun f => (f 1).val) hf
      simp only [hs0, hw0, hs1, hw1] at e0 e1
      change _ = c.val at e0
      change _ = e.val at e1
      refine ⟨by omega, Fin.ext ?_⟩
      show (j 1).val = e.val
      omega
    · rintro ⟨hl, hcol⟩
      have hcol' : (j 1).val = e.val := congrArg Fin.val hcol
      funext a
      refine Fin.ext ?_
      match a with
      | ⟨0, _⟩ =>
        show (d.start j idx 0 + ((d.window j 0 : Nat) : Int)).toNat = c.val
        rw [hs0, hw0]; omega
      | ⟨1, _⟩ =>
        show (d.start j idx 1 + ((d.window j 1 : Nat) : Int)).toNat = e.val
        rw [hs1, hw1]; omega
  · rename_i h
    constructor
    · intro hf; exact absurd hf (by simp)
    · rintro ⟨hl, hcol⟩
      exfalso; apply h
      intro a
      match a with
      | ⟨0, _⟩ =>
        show 0 ≤ d.start j idx 0 + ((d.window j 0 : Nat) : Int) ∧ d.start j idx 0 + ((d.window j 0 : Nat) : Int) < (C : Int)
        rw [hs0, hw0]; omega
      | ⟨1, _⟩ =>
        show 0 ≤ d.start j idx 1 + ((d.window j 1 : Nat) : Int) ∧ d.start j idx 1 + ((d.window j 1 : Nat) : Int) < (D : Int)
        rw [hs1, hw1]; omega

/-- Row updates added by label: entry `(c, e)` gains column `e` of the updates of the samples whose label is `c`. -/
theorem scatterAdd_row_apply {C D N w : Nat}
    (d : ScatterDims ⟨2, ![C, D]⟩ ⟨2, ![N, 1]⟩ ⟨2, ![N, D]⟩)
    (h1 : d.updateWindowDims = [1]) (h2 : d.insertedWindowDims = [0])
    (h3 : d.scatterDimsToOperandDims = [0]) (h4 : d.indexVectorDim = 1)
    (x : (⟨2, ![C, D]⟩ : Shape).Idx → EReal) (idx : IVec ⟨2, ![N, 1]⟩ w)
    (upd : (⟨2, ![N, D]⟩ : Shape).Idx → EReal) (c : Fin C) (e : Fin D) :
    Ideal.hostScatterAdd d x idx upd (ix2 c e)
      = x (ix2 c e) + ∑ n ∈ Finset.univ.filter (fun n : Fin N => (idx (ix2 n (0 : Fin 1))).toInt = (c.val : ℤ)),
          upd (ix2 n e) := by
  unfold Ideal.hostScatterAdd
  congr 1
  -- an update that lands on column `e` has column `e`: re-index the sum by the sample coordinate alone
  refine Finset.sum_nbij' (fun j => (j 0 : Fin N)) (fun n => ix2 n e) ?_ ?_ ?_ ?_ ?_
  · intro j hj
    exact Finset.mem_filter.2 ⟨Finset.mem_univ _,
      ((row_resultIdx_iff d h1 h2 h3 h4 idx j c e).1 (Finset.mem_filter.1 hj).2).1⟩
  · intro n hn
    exact Finset.mem_filter.2 ⟨Finset.mem_univ _,
      (row_resultIdx_iff d h1 h2 h3 h4 idx (ix2 n e) c e).2 ⟨(Finset.mem_filter.1 hn).2, rfl⟩⟩
  · intro j hj
    have hcol := ((row_resultIdx_iff d h1 h2 h3 h4 idx j c e).1 (Finset.mem_filter.1 hj).2).2
    show ix2 (j 0 : Fin N) e = j
    rw [← hcol]; exact (eq_ix2 j).symm
  · intro n _; rfl
  · intro j hj
    have hcol := ((row_resultIdx_iff d h1 h2 h3 h4 idx j c e).1 (Finset.mem_filter.1 hj).2).2
    show upd j = upd (ix2 (j 0 : Fin N) e)
    rw [← hcol]; exact congrArg upd (eq_ix2 j)

/-- One row gathered per sample: sample `n` reads the row numbered by its label, read signed and brought into
    [0, C - 1]. -/
theorem gather_row_apply {α : Type} {C D N w : Nat} (hC : 0 < C)
    (d : GatherDims ⟨2, ![C, D]⟩ ⟨2, ![N, 1]⟩ ⟨2, ![N, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![C, D]⟩ : Shape).Idx → α) (idx : IVec ⟨2, ![N, 1]⟩ w) (n : Fin N) (e : Fin D) :
    Host.gather d x idx (ix2 n e)
      = x (ix2 (⟨min (idx (ix2 n (0 : Fin 1))).toInt.toNat (C - 1), by omega⟩ : Fin C) e) := by
  obtain ⟨od, cd, ob, sb, sm, iv, ss, wf⟩ := d
  simp only at h1 h2 h3 h4 h5 h6 h7
  subst h1 h2 h3 h4 h5 h6 h7
  unfold Host.gather
  congr 1
  funext a
  refine Fin.ext ?_
  match a with
  | ⟨0, _⟩ =>
    -- axis 0: the clamped start, no batching coordinate, no offset (the axis is collapsed)
    show GatherDims.start _ (ix2 n e) idx 0 + GatherDims.batchCoord _ (ix2 n e) 0 + GatherDims.offCoord _ (ix2 n e) 0
      = min (idx (ix2 n (0 : Fin 1))).toInt.toNat (C - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    -- the start index of sample `n` is read at `(n, 0)`
    have hsi : ∀ p, GatherDims.siIdx (⟨[1], [0], [], [], [0], 1, ![1, D], wf⟩ :
        GatherDims ⟨2, ![C, D]⟩ ⟨2, ![N, 1]⟩ ⟨2, ![N, D]⟩) (ix2 n e) ⟨List.idxOf (0 : Fin 2) [(0 : Fin 2)], p⟩
          = ix2 n (0 : Fin 1) := by
      intro p
      funext b; refine Fin.ext ?_
      match b with
      | ⟨0, _⟩ => rfl
      | ⟨1, _⟩ => rfl
    rw [hsi]
    rfl
  | ⟨1, _⟩ =>
    -- axis 1: start 0 (not in the start index map), no batching coordinate, offset the result's column
    show GatherDims.start _ (ix2 n e) idx 1 + GatherDims.batchCoord _ (ix2 n e) 1 + GatherDims.offCoord _ (ix2 n e) 1
      = e.val
    rw [GatherDims.batchCoord_eq_zero _ _ _ List.not_mem_nil]
    unfold GatherDims.start GatherDims.offCoord
    rw [dif_neg (show (1 : Fin 2) ∉ [(0 : Fin 2)] by decide), dif_pos]
    · simp only [Nat.zero_add]; rfl
    · show (1 : Fin 2) ∈ (List.finRange 2).filter (· ∉ [(0 : Fin 2)] ++ [])
      decide

end ClassSpread.Landing

end
-- ==== Proof.RefValue.lean ====
/-
  The ten-class program's result is the centred spread.

  Its operations, in order: the class counts (ones added by label into 10 entries), the divisors (count or one), the
  class totals (feature rows added by label), the class means (totals over divisors), each sample's distance from the
  mean row its label selects, squared, those squares added by label, divided by the divisors, and summed over features
  and then over classes. A member of class c < 10 selects mean row c, so inside the class sum the selected row is the
  class's own.
-/
import proofs.«416717_j18863496364161_3_alg».proof.Proof.Gen.ReferenceIdeal.Read
import proofs.«416717_j18863496364161_3_alg».proof.Proof.Spec
import proofs.«416717_j18863496364161_3_alg».proof.Proof.Landing
import Idealize.ShloMosaic.Lib.IdealHost

noncomputable section

open scoped BigOperators

namespace ClassSpread.Reference

open Idealize.ShloMosaic Idealize.ShloMosaic.ValueIdx Cert.ReferenceIdeal

private abbrev X0 := (⟨S65536x1024, .f32⟩ : BufTy).Contents (Elt Ideal)
private abbrev X1 := (⟨S65536, .i32⟩ : BufTy).Contents (Elt Ideal)

/-- The label column read at sample `n` is the label of `n`. -/
private theorem col_v2 (n : Fin 65536) : Read.idx_main_v2 (ix2 n (0 : Fin 1)) = ix1 n := by
  funext a; match a with | ⟨0, _⟩ => rfl
private theorem col_v7 (n : Fin 65536) : Read.idx_main_v7 (ix2 n (0 : Fin 1)) = ix1 n := by
  funext a; match a with | ⟨0, _⟩ => rfl
private theorem col_v17 (n : Fin 65536) : Read.idx_main_v17 (ix2 n (0 : Fin 1)) = ix1 n := by
  funext a; match a with | ⟨0, _⟩ => rfl
private theorem col_v22 (n : Fin 65536) : Read.idx_main_v22 (ix2 n (0 : Fin 1)) = ix1 n := by
  funext a; match a with | ⟨0, _⟩ => rfl

private theorem zero_word : (FloatOps.ofBits (F := Ideal) .f32 0x00000000#32) = (0 : EReal) :=
  Ideal.ofBits_zero_f32

private theorem one_word : (FloatOps.ofBits (F := Ideal) .f32 0x3F800000#32) = (1 : EReal) :=
  Ideal.ofBits_one_f32

/-- The counts: entry `c` is the number of members of class `c`. -/
private theorem v3_at (x1 : X1) (c : Fin 10) : Read.val_main_v3 (F := Ideal) x1 (ix1 c) = count x1 c.val := by
  unfold Read.val_main_v3
  show Ideal.hostScatterAdd _ _ _ _ (ix1 c) = _
  rw [Landing.scatterAdd_scalar_apply _ rfl rfl rfl rfl]
  rw [Read.val_main_v1_apply, Read.val_main_cst_0_apply, zero_word, zero_add]
  unfold count members
  refine Finset.sum_congr (Finset.filter_congr fun n _ => ?_) fun n _ => ?_
  · rw [Read.val_main_v2_apply, col_v2]
  · rw [Read.val_main_v0_apply, Read.val_main_cst_apply, one_word]

/-- The divisors: the count, or one for an empty class. -/
private theorem v5_at (x1 : X1) (c : Fin 10) : Read.val_main_v5 (F := Ideal) x1 (ix1 c) = denom x1 c.val := by
  rw [Read.val_main_v5_apply, v3_at, Read.val_main_v4_apply, Read.val_main_cst_1_apply, one_word]
  rfl

/-- The class totals. -/
private theorem v8_at (x0 : X0) (x1 : X1) (c : Fin 10) (d : Fin 1024) :
    Read.val_main_v8 (F := Ideal) x0 x1 (ix2 c d) = total x0 x1 c.val d := by
  unfold Read.val_main_v8
  show Ideal.hostScatterAdd _ _ _ _ (ix2 c d) = _
  rw [Landing.scatterAdd_row_apply _ rfl rfl rfl rfl]
  rw [Read.val_main_v6_apply, Read.val_main_cst_2_apply, zero_word, zero_add]
  unfold total members
  refine Finset.sum_congr (Finset.filter_congr fun n _ => ?_) fun n _ => rfl
  rw [Read.val_main_v7_apply, col_v7]

/-- The divisors spread along the features. -/
private theorem v10_at (x1 : X1) (c : Fin 10) (d : Fin 1024) :
    Read.val_main_v10 (F := Ideal) x1 (ix2 c d) = denom x1 c.val := by
  rw [Read.val_main_v10_apply, Read.val_main_v9_apply]
  rw [show Read.idx_main_v9 (Read.idx_main_v10 (ix2 c d)) = ix1 c from by
    funext a; match a with | ⟨0, _⟩ => rfl]
  exact v5_at x1 c

private theorem v25_at (x1 : X1) (c : Fin 10) (d : Fin 1024) :
    Read.val_main_v25 (F := Ideal) x1 (ix2 c d) = denom x1 c.val := by
  rw [Read.val_main_v25_apply, Read.val_main_v24_apply]
  rw [show Read.idx_main_v24 (Read.idx_main_v25 (ix2 c d)) = ix1 c from by
    funext a; match a with | ⟨0, _⟩ => rfl]
  exact v5_at x1 c

/-- The class means. -/
private theorem v11_at (x0 : X0) (x1 : X1) (c : Fin 10) (d : Fin 1024) :
    Read.val_main_v11 (F := Ideal) x0 x1 (ix2 c d)
      = Ideal.div (total x0 x1 c.val d) (denom x1 c.val) := by
  rw [Read.val_main_v11_apply, v8_at, v10_at]
  rfl

/-- A label that is not negative is left as it is. -/
private theorem v16_nonneg (x1 : X1) (n : Fin 65536) (h : 0 ≤ (x1 (ix1 n)).toInt) :
    Read.val_main_v16 (F := Ideal) x1 (ix1 n) = x1 (ix1 n) := by
  rw [Read.val_main_v16_apply, Read.val_main_v13_apply, Read.val_main_v12_apply, Read.val_main_c_apply]
  have hc : IntOp.cmpi .slt (x1 (ix1 n)) 0#32 = 0#1 := by
    unfold IntOp.cmpi
    have h0 : (0#32 : BitVec 32).toInt = 0 := by decide
    have : (x1 (ix1 n)).slt 0#32 = false := by
      simp only [BitVec.slt, h0, decide_eq_false_iff_not, not_lt]; exact h
    rw [this]; rfl
  rw [hc]
  exact if_neg (by decide)

/-- A member of class `c` gathers the mean row of `c`. -/
private theorem v18_member (x0 : X0) (x1 : X1) (c : Fin 10) (n : Fin 65536)
    (hn : (x1 (ix1 n)).toInt = (c.val : ℤ)) (d : Fin 1024) :
    Read.val_main_v18 (F := Ideal) x0 x1 (ix2 n d)
      = Ideal.div (total x0 x1 c.val d) (denom x1 c.val) := by
  unfold Read.val_main_v18
  rw [Landing.gather_row_apply (by decide) _ rfl rfl rfl rfl rfl rfl rfl]
  have key : ∀ k : Fin 10, k.val = c.val →
      Read.val_main_v11 (F := Ideal) x0 x1 (ix2 k d) = Ideal.div (total x0 x1 c.val d) (denom x1 c.val) := by
    intro k hk
    rw [Fin.ext hk]
    exact v11_at x0 x1 c d
  apply key
  show min (Read.val_main_v17 (F := Ideal) x1 (ix2 n (0 : Fin 1))).toInt.toNat (10 - 1) = c.val
  rw [Read.val_main_v17_apply, col_v17, v16_nonneg x1 n (by rw [hn]; exact Int.natCast_nonneg _), hn]
  have := c.isLt
  simp only [Int.toNat_natCast]
  omega

/-- For a member of class `c`: the squared distance from the class mean. -/
private theorem v20_member (x0 : X0) (x1 : X1) (c : Fin 10) (n : Fin 65536)
    (hn : (x1 (ix1 n)).toInt = (c.val : ℤ)) (d : Fin 1024) :
    Read.val_main_v20 (F := Ideal) x0 x1 (ix2 n d)
      = (x0 (ix2 n d) - Ideal.div (total x0 x1 c.val d) (denom x1 c.val))
        * (x0 (ix2 n d) - Ideal.div (total x0 x1 c.val d) (denom x1 c.val)) := by
  rw [Read.val_main_v20_apply, Read.val_main_v19_apply, v18_member x0 x1 c n hn d]
  rfl

/-- The squared distances added up class by class. -/
private theorem v23_at (x0 : X0) (x1 : X1) (c : Fin 10) (d : Fin 1024) :
    Read.val_main_v23 (F := Ideal) x0 x1 (ix2 c d)
      = ∑ n ∈ members x1 c.val,
          (x0 (ix2 n d) - Ideal.div (total x0 x1 c.val d) (denom x1 c.val))
            * (x0 (ix2 n d) - Ideal.div (total x0 x1 c.val d) (denom x1 c.val)) := by
  unfold Read.val_main_v23
  show Ideal.hostScatterAdd _ _ _ _ (ix2 c d) = _
  rw [Landing.scatterAdd_row_apply _ rfl rfl rfl rfl]
  rw [Read.val_main_v21_apply, Read.val_main_cst_4_apply, zero_word, zero_add]
  have hS : (Finset.univ.filter fun n : Fin 65536 =>
      (Read.val_main_v22 (F := Ideal) x1 (ix2 n (0 : Fin 1))).toInt = (c.val : ℤ)) = members x1 c.val := by
    unfold members
    refine Finset.filter_congr fun n _ => ?_
    rw [Read.val_main_v22_apply, col_v22]
  rw [hS]
  refine Finset.sum_congr rfl fun n hn => ?_
  exact v20_member x0 x1 c n (Finset.mem_filter.mp hn).2 d

/-- The mean centred square of class `c` and feature `d`. -/
private theorem v26_at (x0 : X0) (x1 : X1) (c : Fin 10) (d : Fin 1024) :
    Read.val_main_v26 (F := Ideal) x0 x1 (ix2 c d) = centredTerm x0 x1 c.val d := by
  rw [Read.val_main_v26_apply, v23_at, v25_at]
  rfl

/-- Summed over the features. -/
private theorem v27_at (x0 : X0) (x1 : X1) (c : Fin 10) :
    Read.val_main_v27 (F := Ideal) x0 x1 (ix1 c) = ∑ d : Fin 1024, centredTerm x0 x1 c.val d := by
  rw [Read.val_main_v27_apply, Read.val_main_cst_5_apply, zero_word, zero_add]
  refine Finset.sum_congr rfl fun d _ => ?_
  rw [show Read.idx_main_v27 (ix1 c) d = ix2 c d from by
    funext a; match a with | ⟨0, _⟩ => rfl | ⟨1, _⟩ => rfl]
  exact v26_at x0 x1 c d

/-- A class number is an index of the ten-entry vector. -/
private def classIdx : Fin 10 ≃ S10.Idx where
  toFun := ix1
  invFun j := j 0
  left_inv _ := rfl
  right_inv j := (eq_ix1 j).symm

/-- The reference's last stage, as a function of the two arguments, is the centred spread. -/
theorem value (x0 : (⟨S65536x1024, .f32⟩ : BufTy).Contents (Elt Ideal)) (x1 : (⟨S65536, .i32⟩ : BufTy).Contents (Elt Ideal)) :
    Cert.ReferenceIdeal.Read.val_main_v28 (F := Ideal) x0 x1 = fun _ => centredSpread x0 x1 := by
  funext i
  rw [Read.val_main_v28_apply, Read.val_main_cst_6_apply, zero_word, zero_add]
  unfold centredSpread
  exact (Fintype.sum_equiv classIdx _ _ fun c => (v27_at x0 x1 c).symm).symm

end ClassSpread.Reference

end
-- ==== Proof.KerPieces.lean ====
/-
  What one run of the kernel body leaves behind.

  The body runs in three ways. At a feature tile's first sample block it clears both accumulators and then adds the
  block's products to them; at a middle block it only adds; at the tile's last block it adds and then forms the tile's
  number from the two accumulators and the class counts. Each lemma below says what one buffer holds afterwards, as
  the body's own arithmetic applied to the input blocks and to what the accumulators held before: a store that covers
  a whole buffer leaves its payload there, and a load after such a store reads that payload back.
-/
import proofs.«416717_j18863496364161_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace ClassSpread.Kernel

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## A tile's first sample block: the accumulators are cleared, then gain the block -/

/-- The first block of a tile leaves in the sum accumulator the block's class sums added to the cleared accumulator. -/
theorem sumAcc_A (c : Dev nD) (i : grid0.Coords) (arg2 : Memref sig .tc .vmem S4096x512 .f32) (harg2 : arg2.IsWhole) (arg3 : Memref sig .tc .vmem S4096x1 .i32) (harg3 : arg3.IsWhole) (arg4 : Memref sig .tc .vmem S128x1 .f32) (harg4 : arg4.IsWhole) (arg5 : Memref sig .tc .vmem S1x1x1 .f32) (harg5 : arg5.IsWhole) (arg6 : Memref sig .tc .vmem S128x512 .f32) (harg6 : arg6.IsWhole) (arg7 : Memref sig .tc .vmem S128x512 .f32) (harg7 : arg7.IsWhole) (hc0 : cond0_0 i) (hc1 : ¬cond0_1 i)
    (x0 : Vec F S4096x512 .f32) (x1 : Vec F S4096x1 .i32) (x2 : Vec F S128x1 .f32) :
    sout0_A_0 c i arg2 harg2 arg3 harg3 arg4 harg4 arg5 harg5 arg6 harg6 arg7 harg7 hc0 hc1 x0 x1 x2 = k0_pay5 x0 x1 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S128x512) hz2, View.readCov_unit_zero (S := S128x512) _ hz2]
  simp only [View.readAt_eq_ld, harg2.read_unread, harg3.read_unread, harg4.read_unread, harg6.read_unread, harg7.read_unread,
    View.readCov_unit_zero (S := S128x512) _ hz2,
    View.ld_unit_zero (S := S4096x512) hz2, View.ld_unit_zero (S := S4096x1) hz2, View.ld_unit_zero (S := S128x1) hz2,
    View.ld_unit_zero (S := S128x512) hz2]

/-- The first block of a tile leaves in the square accumulator the block's class sums of squares added to the cleared accumulator. -/
theorem sqAcc_A (c : Dev nD) (i : grid0.Coords) (arg2 : Memref sig .tc .vmem S4096x512 .f32) (harg2 : arg2.IsWhole) (arg3 : Memref sig .tc .vmem S4096x1 .i32) (harg3 : arg3.IsWhole) (arg4 : Memref sig .tc .vmem S128x1 .f32) (harg4 : arg4.IsWhole) (arg5 : Memref sig .tc .vmem S1x1x1 .f32) (harg5 : arg5.IsWhole) (arg6 : Memref sig .tc .vmem S128x512 .f32) (harg6 : arg6.IsWhole) (arg7 : Memref sig .tc .vmem S128x512 .f32) (harg7 : arg7.IsWhole) (hc0 : cond0_0 i) (hc1 : ¬cond0_1 i)
    (x0 : Vec F S4096x512 .f32) (x1 : Vec F S4096x1 .i32) (x2 : Vec F S128x1 .f32) :
    sout0_A_1 c i arg2 harg2 arg3 harg3 arg4 harg4 arg5 harg5 arg6 harg6 arg7 harg7 hc0 hc1 x0 x1 x2 = k0_pay6 x0 x1 (k0_pay2 (F := F)) := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S128x512) hz2, View.readCov_unit_zero (S := S128x512) _ hz2]
  simp only [View.readAt_eq_ld, harg2.read_unread, harg3.read_unread, harg4.read_unread, harg6.read_unread, harg7.read_unread,
    View.readCov_unit_zero (S := S128x512) _ hz2,
    View.ld_unit_zero (S := S4096x512) hz2, View.ld_unit_zero (S := S4096x1) hz2, View.ld_unit_zero (S := S128x1) hz2,
    View.ld_unit_zero (S := S128x512) hz2]

/-! ## A middle sample block: each accumulator gains the block -/

/-- A middle block leaves in the sum accumulator what it held plus the block's class sums. -/
theorem sumAcc_B (c : Dev nD) (i : grid0.Coords) (arg2 : Memref sig .tc .vmem S4096x512 .f32) (harg2 : arg2.IsWhole) (arg3 : Memref sig .tc .vmem S4096x1 .i32) (harg3 : arg3.IsWhole) (arg4 : Memref sig .tc .vmem S128x1 .f32) (harg4 : arg4.IsWhole) (arg5 : Memref sig .tc .vmem S1x1x1 .f32) (harg5 : arg5.IsWhole) (arg6 : Memref sig .tc .vmem S128x512 .f32) (harg6 : arg6.IsWhole) (arg7 : Memref sig .tc .vmem S128x512 .f32) (harg7 : arg7.IsWhole) (hc0 : ¬cond0_0 i) (hc1 : ¬cond0_1 i)
    (x0 : Vec F S4096x512 .f32) (x1 : Vec F S4096x1 .i32) (x2 : Vec F S128x1 .f32) (xs0 xs1 : Vec F S128x512 .f32) :
    sout0_B_0 c i arg2 harg2 arg3 harg3 arg4 harg4 arg5 harg5 arg6 harg6 arg7 harg7 hc0 hc1 x0 x1 x2 xs0 xs1 = k0_pay5 x0 x1 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_unit_zero hz2]
  simp only [View.readAt_eq_ld, harg2.read_unread, harg3.read_unread, harg4.read_unread, harg6.read_unread, harg7.read_unread,
    View.readCov_unit_zero (S := S128x512) _ hz2,
    View.ld_unit_zero (S := S4096x512) hz2, View.ld_unit_zero (S := S4096x1) hz2, View.ld_unit_zero (S := S128x1) hz2,
    View.ld_unit_zero (S := S128x512) hz2]

/-- A middle block leaves in the square accumulator what it held plus the block's class sums of squares. -/
theorem sqAcc_B (c : Dev nD) (i : grid0.Coords) (arg2 : Memref sig .tc .vmem S4096x512 .f32) (harg2 : arg2.IsWhole) (arg3 : Memref sig .tc .vmem S4096x1 .i32) (harg3 : arg3.IsWhole) (arg4 : Memref sig .tc .vmem S128x1 .f32) (harg4 : arg4.IsWhole) (arg5 : Memref sig .tc .vmem S1x1x1 .f32) (harg5 : arg5.IsWhole) (arg6 : Memref sig .tc .vmem S128x512 .f32) (harg6 : arg6.IsWhole) (arg7 : Memref sig .tc .vmem S128x512 .f32) (harg7 : arg7.IsWhole) (hc0 : ¬cond0_0 i) (hc1 : ¬cond0_1 i)
    (x0 : Vec F S4096x512 .f32) (x1 : Vec F S4096x1 .i32) (x2 : Vec F S128x1 .f32) (xs0 xs1 : Vec F S128x512 .f32) :
    sout0_B_1 c i arg2 harg2 arg3 harg3 arg4 harg4 arg5 harg5 arg6 harg6 arg7 harg7 hc0 hc1 x0 x1 x2 xs0 xs1 = k0_pay6 x0 x1 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  rw [View.canon_unit_zero hz2]
  simp only [View.readAt_eq_ld, harg2.read_unread, harg3.read_unread, harg4.read_unread, harg6.read_unread, harg7.read_unread,
    View.readCov_unit_zero (S := S128x512) _ hz2,
    View.ld_unit_zero (S := S4096x512) hz2, View.ld_unit_zero (S := S4096x1) hz2, View.ld_unit_zero (S := S128x1) hz2,
    View.ld_unit_zero (S := S128x512) hz2]

/-! ## A tile's last sample block: the accumulators gain the block, and the tile's number is formed from them -/

/-- The last block of a tile updates the sum accumulator like a middle block. -/
theorem sumAcc_C (c : Dev nD) (i : grid0.Coords) (arg2 : Memref sig .tc .vmem S4096x512 .f32) (harg2 : arg2.IsWhole) (arg3 : Memref sig .tc .vmem S4096x1 .i32) (harg3 : arg3.IsWhole) (arg4 : Memref sig .tc .vmem S128x1 .f32) (harg4 : arg4.IsWhole) (arg5 : Memref sig .tc .vmem S1x1x1 .f32) (harg5 : arg5.IsWhole) (arg6 : Memref sig .tc .vmem S128x512 .f32) (harg6 : arg6.IsWhole) (arg7 : Memref sig .tc .vmem S128x512 .f32) (harg7 : arg7.IsWhole) (hc0 : ¬cond0_0 i) (hc1 : cond0_1 i)
    (x0 : Vec F S4096x512 .f32) (x1 : Vec F S4096x1 .i32) (x2 : Vec F S128x1 .f32) (xs0 xs1 : Vec F S128x512 .f32) :
    sout0_C_0 c i arg2 harg2 arg3 harg3 arg4 harg4 arg5 harg5 arg6 harg6 arg7 harg7 hc0 hc1 x0 x1 x2 xs0 xs1 = k0_pay5 x0 x1 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero hz2]
  simp only [View.readAt_eq_ld, harg2.read_unread, harg3.read_unread, harg4.read_unread, harg6.read_unread, harg7.read_unread,
    View.readCov_unit_zero (S := S128x512) _ hz2,
    View.ld_unit_zero (S := S4096x512) hz2, View.ld_unit_zero (S := S4096x1) hz2, View.ld_unit_zero (S := S128x1) hz2,
    View.ld_unit_zero (S := S128x512) hz2]

/-- The last block of a tile updates the square accumulator like a middle block. -/
theorem sqAcc_C (c : Dev nD) (i : grid0.Coords) (arg2 : Memref sig .tc .vmem S4096x512 .f32) (harg2 : arg2.IsWhole) (arg3 : Memref sig .tc .vmem S4096x1 .i32) (harg3 : arg3.IsWhole) (arg4 : Memref sig .tc .vmem S128x1 .f32) (harg4 : arg4.IsWhole) (arg5 : Memref sig .tc .vmem S1x1x1 .f32) (harg5 : arg5.IsWhole) (arg6 : Memref sig .tc .vmem S128x512 .f32) (harg6 : arg6.IsWhole) (arg7 : Memref sig .tc .vmem S128x512 .f32) (harg7 : arg7.IsWhole) (hc0 : ¬cond0_0 i) (hc1 : cond0_1 i)
    (x0 : Vec F S4096x512 .f32) (x1 : Vec F S4096x1 .i32) (x2 : Vec F S128x1 .f32) (xs0 xs1 : Vec F S128x512 .f32) :
    sout0_C_1 c i arg2 harg2 arg3 harg3 arg4 harg4 arg5 harg5 arg6 harg6 arg7 harg7 hc0 hc1 x0 x1 x2 xs0 xs1 = k0_pay6 x0 x1 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero hz2]
  simp only [View.readAt_eq_ld, harg2.read_unread, harg3.read_unread, harg4.read_unread, harg6.read_unread, harg7.read_unread,
    View.readCov_unit_zero (S := S128x512) _ hz2,
    View.ld_unit_zero (S := S4096x512) hz2, View.ld_unit_zero (S := S4096x1) hz2, View.ld_unit_zero (S := S128x1) hz2,
    View.ld_unit_zero (S := S128x512) hz2]

/-- The last block of a tile writes the tile's number: the finishing arithmetic applied to the class counts and to the two accumulators as just updated. -/
theorem tile_C (c : Dev nD) (i : grid0.Coords) (arg2 : Memref sig .tc .vmem S4096x512 .f32) (harg2 : arg2.IsWhole) (arg3 : Memref sig .tc .vmem S4096x1 .i32) (harg3 : arg3.IsWhole) (arg4 : Memref sig .tc .vmem S128x1 .f32) (harg4 : arg4.IsWhole) (arg5 : Memref sig .tc .vmem S1x1x1 .f32) (harg5 : arg5.IsWhole) (arg6 : Memref sig .tc .vmem S128x512 .f32) (harg6 : arg6.IsWhole) (arg7 : Memref sig .tc .vmem S128x512 .f32) (harg7 : arg7.IsWhole) (hc0 : ¬cond0_0 i) (hc1 : cond0_1 i)
    (x0 : Vec F S4096x512 .f32) (x1 : Vec F S4096x1 .i32) (x2 : Vec F S128x1 .f32) (xs0 xs1 : Vec F S128x512 .f32) :
    out0_C_3 c i arg2 harg2 arg3 harg3 arg4 harg4 arg5 harg5 arg6 harg6 arg7 harg7 hc0 hc1 x0 x1 x2 xs0 xs1 = k0_pay7 x2 (k0_pay5 x0 x1 xs0) (k0_pay6 x0 x1 xs1) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero hz3]
  simp only [View.readAt_eq_ld, harg2.read_unread, harg3.read_unread, harg4.read_unread, harg6.read_unread, harg7.read_unread,
    View.readCov_unit_zero (S := S128x512) _ hz2,
    View.ld_unit_zero (S := S4096x512) hz2, View.ld_unit_zero (S := S4096x1) hz2, View.ld_unit_zero (S := S128x1) hz2,
    View.ld_unit_zero (S := S128x512) hz2]

end ClassSpread.Kernel

end
-- ==== Proof.KerPayloads.lean ====
/-
  The kernel body's arithmetic, entry by entry, on the extended reals.

  A label word `l` and a class lane `c` give the one-hot entry: 1 when the lane's number, as a 32-bit word, is the
  label, else 0 (the comparison's bit, widened and converted, is exactly that integer; the narrowing of formats changes
  nothing on the extended reals). With a block of 4096 samples' features x0 (512 of them) and labels x1:

  * clearing an accumulator stores zeros;
  * the sum accumulator's update adds, to entry (c, d), the sum over the block's samples k of onehot(label k, c) · x0(k, d):
    the matrix product contracts the sample axis of the one-hot matrix with the sample axis of the features, onto a zero
    accumulator, and the result is added to what the accumulator held;
  * the square accumulator's update is the same with x0(k, d)² (the square taken before the product);
-/
import proofs.«416717_j18863496364161_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace ClassSpread.Kernel

open Idealize.ShloMosaic Idealize.ShloMosaic.ValueIdx Cert.KernelIdeal Cert.KernelIdeal.Gen

/-- The one-hot entry of label word `l` at class lane `c`. -/
def onehot (l : BitVec 32) (c : Fin 128) : EReal := if BitVec.ofNat 32 c.val = l then 1 else 0

/-- A cleared sum accumulator holds zeros. -/
theorem clearSum_apply (c : Fin 128) (d : Fin 512) : ((k0_pay1 (F := Ideal)) (ix2 c d) : EReal) = 0 := by
  unfold k0_pay1
  rw [shapeCast_self]
  exact Ideal.ofBits_zero_f32

/-- A cleared square accumulator holds zeros. -/
theorem clearSq_apply (c : Fin 128) (d : Fin 512) : ((k0_pay2 (F := Ideal)) (ix2 c d) : EReal) = 0 := by
  unfold k0_pay2
  rw [shapeCast_self]
  exact Ideal.ofBits_zero_f32

/-- A one-bit word is 0 or 1. -/
private theorem bit_cases (b : BitVec 1) : b = 0#1 ∨ b = 1#1 := by revert b; decide

/-- The one-hot matrix's entry at sample k and class lane c: the lane's number compared with the sample's label,
    the comparison's bit widened to 32 bits and read as a signed integer. -/
private theorem pay4_apply (x1 : IVec S4096x1 32) (k : Fin 4096) (c : Fin 128) :
    (k0_pay4 (F := Ideal) x1 (ix2 k c) : EReal) = onehot (x1 (ix2 k (0 : Fin 1))) c := by
  unfold k0_pay4
  rw [shapeCast_self]
  have hi : iota .tc S4096x128 32 [1] iota_S4096x128_d1_w32 (ix2 k c) = BitVec.ofNat 32 c.val := by
    rw [iota_single_apply]
  have hb : broadcastTo S4096x128 x1 broadcasts_S4096x1_S4096x128 (ix2 k c) = x1 (ix2 k (0 : Fin 1)) :=
    broadcastTo_apply x1 _ (ix2 k c) (ix2 k (0 : Fin 1)) (fun a => by
      match a with
      | ⟨0, _⟩ => rfl
      | ⟨1, _⟩ => rfl)
  show ((((IntOp.cmpi .eq (iota .tc S4096x128 32 [1] iota_S4096x128_d1_w32 (ix2 k c))
      (broadcastTo S4096x128 x1 broadcasts_S4096x1_S4096x128 (ix2 k c))).setWidth 32).toInt : ℝ) : EReal) = _
  rw [hi, hb]
  unfold onehot
  by_cases he : BitVec.ofNat 32 c.val = x1 (ix2 k (0 : Fin 1))
  · rw [if_pos he, IntOp.cmpi_eq.2 he]
    rw [show (BitVec.setWidth 32 1#1).toInt = 1 from by decide, Int.cast_one, EReal.coe_one]
  · rw [if_neg he]
    rcases bit_cases (IntOp.cmpi .eq (BitVec.ofNat 32 c.val) (x1 (ix2 k (0 : Fin 1)))) with h0 | h1
    · rw [h0]
      rw [show (BitVec.setWidth 32 0#1).toInt = 0 from by decide, Int.cast_zero, EReal.coe_zero]
    · exact absurd (IntOp.cmpi_eq.1 h1) he

local notation "DD" => dot_S4096x128_S4096x512_S128x512_0_0_1_1_n_n

/-- The contraction index of sample k: the one-axis contraction index whose coordinate is k. -/
private def kk (k : Fin 4096) : (DD).contr.Idx := (contrEquiv1 DD 4096 rfl rfl).symm k

private theorem kk_val (k : Fin 4096) : ((kk k ⟨0, Nat.one_pos⟩ : Fin _) : ℕ) = k.val :=
  contrEquiv1_symm_val DD 4096 rfl rfl k

/-- Left operand, axis 0 (the contracted sample axis): the contraction position. -/
private theorem lhs_axis0 (c : Fin 128) (d : Fin 512) (k : Fin 4096) :
    (((DD).lhsIdx (ix2 c d) (kk k) 0 : Fin _) : ℕ) = k.val := by
  rw [(DD).lhsIdx_val_of_single (cl := 0) rfl (ix2 c d) (kk k)]
  exact kk_val k

/-- Left operand, axis 1 (the class axis): the output's row. -/
private theorem lhs_axis1 (c : Fin 128) (d : Fin 512) (k : Fin 4096) :
    (((DD).lhsIdx (ix2 c d) (kk k) 1 : Fin _) : ℕ) = c.val := by
  simp [DotDims.lhsIdx, dot_S4096x128_S4096x512_S128x512_0_0_1_1_n_n]
  rfl

/-- Right operand, axis 0 (the contracted sample axis): the contraction position. -/
private theorem rhs_axis0 (c : Fin 128) (d : Fin 512) (k : Fin 4096) :
    (((DD).rhsIdx (ix2 c d) (kk k) 0 : Fin _) : ℕ) = k.val := by
  rw [(DD).rhsIdx_val_of_single (cr := 0) rfl (ix2 c d) (kk k)]
  exact kk_val k

/-- Right operand, axis 1 (the feature axis): the output's column. -/
private theorem rhs_axis1 (c : Fin 128) (d : Fin 512) (k : Fin 4096) :
    (((DD).rhsIdx (ix2 c d) (kk k) 1 : Fin _) : ℕ) = d.val := by
  simp [DotDims.rhsIdx, dot_S4096x128_S4096x512_S128x512_0_0_1_1_n_n]
  rfl

/-- The left operand's index at output (c, d) and sample k is (k, c). -/
private theorem lhsIdx_eq (c : Fin 128) (d : Fin 512) (k : Fin 4096) : (DD).lhsIdx (ix2 c d) (kk k) = ix2 k c := by
  funext a
  apply Fin.ext
  match a with
  | ⟨0, _⟩ => exact lhs_axis0 c d k
  | ⟨1, _⟩ => exact lhs_axis1 c d k

/-- The right operand's index at output (c, d) and sample k is (k, d). -/
private theorem rhsIdx_eq (c : Fin 128) (d : Fin 512) (k : Fin 4096) : (DD).rhsIdx (ix2 c d) (kk k) = ix2 k d := by
  funext a
  apply Fin.ext
  match a with
  | ⟨0, _⟩ => exact rhs_axis0 c d k
  | ⟨1, _⟩ => exact rhs_axis1 c d k

/-- The product onto a zero accumulator, read at (c, d): the sum over the samples of the two operands' entries. -/
private theorem matmul_zero_apply (A : FVec Ideal S4096x128 .bf16) (B : FVec Ideal S4096x512 .bf16) (c : Fin 128) (d : Fin 512) :
    (matmul (F := Ideal) DD none A B (constant (F := Ideal) S128x512 .f32 0x00000000#32) (ix2 c d) : EReal)
      = ∑ k : Fin 4096, (A (ix2 k c) : EReal) * (B (ix2 k d) : EReal) := by
  show FloatOps.matmul DD none A B (constant (F := Ideal) S128x512 .f32 0x00000000#32) (ix2 c d) = _
  rw [Ideal.matmul_constant_zero_apply, ← Equiv.sum_comp (contrEquiv1 DD 4096 rfl rfl).symm]
  refine Finset.sum_congr rfl fun k _ => ?_
  show A ((DD).lhsIdx (ix2 c d) (kk k)) * B ((DD).rhsIdx (ix2 c d) (kk k)) = _
  rw [lhsIdx_eq, rhsIdx_eq]

/-- The sum accumulator's update at entry (c, d). -/
theorem sumUpdate_apply (x0 : FVec Ideal S4096x512 .f32) (x1 : IVec S4096x1 32) (s : FVec Ideal S128x512 .f32)
    (c : Fin 128) (d : Fin 512) :
    (k0_pay5 (F := Ideal) x0 x1 s (ix2 c d) : EReal)
      = (s (ix2 c d) : EReal) + ∑ k : Fin 4096, onehot (x1 (ix2 k (0 : Fin 1))) c * (x0 (ix2 k d) : EReal) := by
  unfold k0_pay5
  rw [shapeCast_self, addf_apply, matmul_zero_apply]
  refine congrArg (s (ix2 c d) + ·) (Finset.sum_congr rfl fun k _ => ?_)
  rw [pay4_apply]
  rfl

/-- The square accumulator's update at entry (c, d). -/
theorem sqUpdate_apply (x0 : FVec Ideal S4096x512 .f32) (x1 : IVec S4096x1 32) (s : FVec Ideal S128x512 .f32)
    (c : Fin 128) (d : Fin 512) :
    (k0_pay6 (F := Ideal) x0 x1 s (ix2 c d) : EReal)
      = (s (ix2 c d) : EReal)
        + ∑ k : Fin 4096, onehot (x1 (ix2 k (0 : Fin 1))) c * ((x0 (ix2 k d) : EReal) * (x0 (ix2 k d) : EReal)) := by
  unfold k0_pay6
  rw [shapeCast_self, addf_apply, matmul_zero_apply]
  refine congrArg (s (ix2 c d) + ·) (Finset.sum_congr rfl fun k _ => ?_)
  rw [pay4_apply]
  rfl

end ClassSpread.Kernel

end
-- ==== Proof.KerTile.lean ====
/-
  A feature tile's number, entry by entry, on the extended reals.

  From the class counts cnt (one per class lane), the sum accumulator a and the square accumulator b (class lanes by
  the tile's 512 features): per class the divisor is max (cnt c) 1; per entry the body forms
  max (b(c, d) / divisor c − (a(c, d) / divisor c)², 0); it adds these along the feature axis, starting from 0, which
  gives one number per class lane, and then along the class axis, starting from 0. The reshapes in between move no
  value. A sum that starts from 0 is the plain sum.
-/
import proofs.«416717_j18863496364161_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace ClassSpread.Kernel

open Idealize.ShloMosaic Idealize.ShloMosaic.ValueIdx Cert.KernelIdeal Cert.KernelIdeal.Gen

/-- The word of 1.0 denotes the extended real 1. -/
private theorem ofBits_one_f32 : Ideal.ofBits .f32 0x3F800000#32 = 1 := by
  simp [Ideal.ofBits, Ideal.ieee, -EReal.coe_mul]; norm_num

/-- A column of n entries broadcast along m features reads, at (c, d), the column at (c, 0). -/
private theorem broadcastTo_a1_ab_apply {α : Type} {n m : ℕ} (v : (⟨2, ![n, 1]⟩ : Shape).Idx → α)
    (h : (⟨2, ![n, 1]⟩ : Shape).Broadcasts ⟨2, ![n, m]⟩) (c : Fin n) (d : Fin m) :
    broadcastTo ⟨2, ![n, m]⟩ v h (ix2 c d) = v (ix2 c (0 : Fin 1)) := by
  refine broadcastTo_apply v h (ix2 c d) (ix2 c (0 : Fin 1)) fun ax => ?_
  match ax with
  | ⟨0, _⟩ =>
    show c.val = if n = 1 then 0 else c.val
    split
    · have := c.isLt; omega
    · rfl
  | ⟨1, _⟩ => rfl

/-- The clamped entries: what the body adds up. -/
private def clampedEntries (cnt : FVec Ideal S128x1 .f32) (a b : FVec Ideal S128x512 .f32) : FVec Ideal S128x512 .f32 :=
  maximumf
    (subf
      (divf b (broadcastTo S128x512 (maximumf (shapeCast S128x1 cnt shapeCasts_S128x1_S128x1)
        (broadcast S128x1 (Scalar.ofBits .f32 0x3F800000#32))) broadcasts_S128x1_S128x512))
      (mulf
        (divf a (broadcastTo S128x512 (maximumf (shapeCast S128x1 cnt shapeCasts_S128x1_S128x1)
          (broadcast S128x1 (Scalar.ofBits .f32 0x3F800000#32))) broadcasts_S128x1_S128x512))
        (divf a (broadcastTo S128x512 (maximumf (shapeCast S128x1 cnt shapeCasts_S128x1_S128x1)
          (broadcast S128x1 (Scalar.ofBits .f32 0x3F800000#32))) broadcasts_S128x1_S128x512))))
    (broadcast S128x512 (Scalar.ofBits .f32 0x00000000#32))

/-- The two sums and the reshapes between them, over any entries. -/
private def total (v : FVec Ideal S128x512 .f32) : FVec Ideal S1x1x1 .f32 :=
  broadcast S1x1x1
    (extractAt ![0, 0, 0]
      (shapeCast S1x1x1
        (multiReduction (F := Ideal) .add [1, 2] S1
          (shapeCast S1x128x1
            (shapeCast S128x1
              (multiReduction (F := Ideal) .add [1] S128 v 0x00000000#32 reduces_S128x512_S128 (.inl rfl) rfl)
              shapeCasts_S128_S128x1)
            shapeCasts_S128x1_S1x128x1)
          0x00000000#32 reduces_S1x128x1_S1 (.inl rfl) rfl)
        shapeCasts_S1_S1x1x1)
      inpos_S1x1x1_p0_0_0)

/-- The finishing arithmetic is the two sums taken over the clamped entries: both sides unfold to one term. -/
private theorem pay7_eq (cnt : FVec Ideal S128x1 .f32) (a b : FVec Ideal S128x512 .f32) :
    k0_pay7 (F := Ideal) cnt a b = total (clampedEntries cnt a b) := rfl

/-- An entry of the clamped vector, from the three inputs. -/
private theorem clampedEntries_apply (cnt : FVec Ideal S128x1 .f32) (a b : FVec Ideal S128x512 .f32)
    (c : Fin 128) (d : Fin 512) :
    (clampedEntries cnt a b (ix2 c d) : EReal)
      = max (Ideal.div (b (ix2 c d) : EReal) (max (cnt (ix2 c (0 : Fin 1)) : EReal) 1)
              - Ideal.div (a (ix2 c d) : EReal) (max (cnt (ix2 c (0 : Fin 1)) : EReal) 1)
                * Ideal.div (a (ix2 c d) : EReal) (max (cnt (ix2 c (0 : Fin 1)) : EReal) 1)) 0 := by
  have hdiv : broadcastTo S128x512 (maximumf (shapeCast S128x1 cnt shapeCasts_S128x1_S128x1)
        (broadcast S128x1 (Scalar.ofBits .f32 0x3F800000#32))) broadcasts_S128x1_S128x512 (ix2 c d)
      = max (cnt (ix2 c (0 : Fin 1)) : EReal) 1 := by
    rw [broadcastTo_a1_ab_apply, shapeCast_self, maximumf_apply, broadcast_apply]
    show max _ (Ideal.ofBits .f32 0x3F800000#32) = _
    rw [ofBits_one_f32]
  unfold clampedEntries
  rw [maximumf_apply, subf_apply, mulf_apply, divf_apply, divf_apply, hdiv, broadcast_apply]
  show max _ (Ideal.ofBits .f32 0x00000000#32) = _
  rw [Ideal.ofBits_zero_f32]

/-- An index of the one-row, one-column stack of lanes is its lane. -/
private def laneEquiv : S1x128x1.Idx ≃ Fin 128 where
  toFun i := i 1
  invFun c := ix3 (0 : Fin 1) c (0 : Fin 1)
  left_inv i := by
    funext ax
    match ax with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- The sum along the feature axis, started from the word of 0, at lane c: the plain sum over the lane's entries. -/
private theorem featureSum_apply (v : FVec Ideal S128x512 .f32) (c : Fin 128) :
    (multiReduction (F := Ideal) .add [1] S128 v 0x00000000#32 reduces_S128x512_S128 (.inl rfl) rfl (ix1 c) : EReal)
      = ∑ d : Fin 512, v (ix2 c d) := by
  refine (Ideal.multiReduction_add_single v 0x00000000#32 reduces_S128x512_S128 (.inl rfl) rfl (ix1 c)).trans ?_
  refine Finset.sum_congr rfl fun d _ => congrArg v ?_
  funext ax
  match ax with
  | ⟨0, _⟩ => rfl
  | ⟨1, _⟩ => rfl

/-- The sum along the lane axis and the unit axis after it, started from the word of 0: the plain sum over the lanes. -/
private theorem laneSum_apply (w : FVec Ideal S1x128x1 .f32) (k : S1.Idx) :
    (multiReduction (F := Ideal) .add [1, 2] S1 w 0x00000000#32 reduces_S1x128x1_S1 (.inl rfl) rfl k : EReal)
      = ∑ c : Fin 128, w (ix3 (0 : Fin 1) c (0 : Fin 1)) := by
  refine (Ideal.multiReduction_add_total w 0x00000000#32 reduces_S1x128x1_S1
    (fun b => by match b with | ⟨0, _⟩ => rfl) (.inl rfl) rfl k).trans ?_
  rw [← Equiv.sum_comp laneEquiv.symm w]
  rfl

/-- The reshape of the lane sums to a column moves no value. -/
private theorem column_apply {α : Type} (u : S128.Idx → α) (c : Fin 128) :
    shapeCast S128x1 u shapeCasts_S128_S128x1 (ix2 c (0 : Fin 1)) = u (ix1 c) :=
  shapeCast_apply u _ _ _ (by
    rw [Shape.rowMajor_val_one, Shape.rowMajor_val_two]
    show c.val = c.val * 1 + 0
    omega)

/-- The tile's number over any entries: the sum over lanes of the sum over features. -/
private theorem total_apply (v : FVec Ideal S128x512 .f32) (j : S1x1x1.Idx) :
    (total v j : EReal) = ∑ c : Fin 128, ∑ d : Fin 512, v (ix2 c d) := by
  unfold total
  rw [broadcast_apply]
  show multiReduction (F := Ideal) .add [1, 2] S1 _ 0x00000000#32 reduces_S1x128x1_S1 (.inl rfl) rfl _ = _
  rw [laneSum_apply]
  refine Finset.sum_congr rfl fun c _ => ?_
  rw [shapeCast_ab_1ab_apply, column_apply, featureSum_apply]

/-- The tile's number, from the class counts `cnt`, the sum accumulator `a` and the square accumulator `b`. -/
theorem tileNumber_apply (cnt : FVec Ideal S128x1 .f32) (a b : FVec Ideal S128x512 .f32) (j : S1x1x1.Idx) :
    (k0_pay7 (F := Ideal) cnt a b j : EReal)
      = ∑ c : Fin 128, ∑ d : Fin 512,
          max (Ideal.div (b (ix2 c d) : EReal) (max (cnt (ix2 c (0 : Fin 1)) : EReal) 1)
                - Ideal.div (a (ix2 c d) : EReal) (max (cnt (ix2 c (0 : Fin 1)) : EReal) 1)
                  * Ideal.div (a (ix2 c d) : EReal) (max (cnt (ix2 c (0 : Fin 1)) : EReal) 1)) 0 := by
  rw [pay7_eq, total_apply]
  exact Finset.sum_congr rfl fun c _ => Finset.sum_congr rfl fun d _ => clampedEntries_apply cnt a b c d

end ClassSpread.Kernel

end
-- ==== Proof.KerArrays.lean ====
/-
  What the kernel's pipeline reads at each grid point.

  The grid has 2 × 16 points; point t works on feature tile t / 16 and sample block t % 16. Three arrays are staged:
  the feature matrix, whose block at t is rows 4096 (t % 16) … + 4095 and columns 512 (t / 16) … + 511; the labels as
  a column [65536, 1] (a reshape of the label vector), whose block at t is the same rows; and the class counts as a
  column [128, 1], read whole at every point. The counts are ones added by label into 128 zeroed entries, so entry c
  is the number of samples whose label, read signed, is c.
-/
import proofs.«416717_j18863496364161_3_alg».proof.Proof.Gen.KernelIdeal.Frame
import proofs.«416717_j18863496364161_3_alg».proof.Proof.Spec
import proofs.«416717_j18863496364161_3_alg».proof.Proof.Landing
import Idealize.ShloMosaic.Lib.Pipeline.Value
import Idealize.ShloMosaic.Lib.ValueIdx
import Idealize.ShloMosaic.Lib.StableHlo.Run
import Idealize.ShloMosaic.Lib.IdealHost
import Idealize.ShloMosaic.Lib.Tactic

set_option maxRecDepth 16384

noncomputable section

open scoped BigOperators

open Idealize.ShloMosaic Idealize.ShloMosaic.TcCoe Idealize.SL.Sem Idealize.ShloMosaic.ValueIdx

namespace ClassSpread.Kernel

open Cert.KernelIdeal Cert.KernelIdeal.Gen

theorem gridN : cfg0.N = 32 := N_0

/-- Sample row `4096 (t % 16) + k` of block row k at point t. -/
def rowAt (t : Fin cfg0.N) (k : Fin 4096) : Fin 65536 :=
  ⟨4096 * (t.val % 16) + k.val, by have := t.isLt; have := gridN; omega⟩

/-- Feature column `512 (t / 16) + d` of block column d at point t. -/
def colAt (t : Fin cfg0.N) (d : Fin 512) : Fin 1024 :=
  ⟨512 * (t.val / 16) + d.val, by have := t.isLt; have := gridN; omega⟩

section AnyInstance
variable {F : FTy → Type} [FloatOps F]
variable (m : (ℓ : Loc nD τ sig) → Buf (Elt F) ℓ)

/-- The feature window's block index at point t: (sample block, feature tile). -/
theorem featIndex : ∀ t : Fin cfg0.N, win0_0.index t (0 : Fin 2) = t.val % 16 ∧ win0_0.index t (1 : Fin 2) = t.val / 16 :=
  (by decide +kernel : ∀ t : Fin grid0.N, _)

/-- The label window's block index at point t: (sample block, 0). -/
theorem labelIndex : ∀ t : Fin cfg0.N, win0_1.index t (0 : Fin 2) = t.val % 16 ∧ win0_1.index t (1 : Fin 2) = 0 :=
  (by decide +kernel : ∀ t : Fin grid0.N, _)

/-- The count window's block index never moves. -/
theorem countIndex : ∀ t : Fin cfg0.N, win0_2.index t (0 : Fin 2) = 0 ∧ win0_2.index t (1 : Fin 2) = 0 :=
  (by decide +kernel : ∀ t : Fin grid0.N, _)

/-- The feature window's block at point t, read off any array of the matrix's shape. -/
theorem featBlock_read (t : Fin cfg0.N) (A : FVec F S65536x1024 .f32) (k : Fin 4096) (d : Fin 512) :
    (((cfg0.win 0).blk t).view.read (Elt F) A : FVec F S4096x512 .f32) (ix2 k d) = A (ix2 (rowAt t k) (colAt t d)) := by
  rw [View.read_apply]
  refine congrArg A ?_
  funext a
  refine Fin.ext ?_
  match a with
  | ⟨0, _⟩ =>
    show win0_0.index t 0 * 4096 + 1 * k.val = 4096 * (t.val % 16) + k.val
    rw [(featIndex t).1]; omega
  | ⟨1, _⟩ =>
    show win0_0.index t 1 * 512 + 1 * d.val = 512 * (t.val / 16) + d.val
    rw [(featIndex t).2]; omega

/-- The label window's block at point t, read off any column of the labels' shape. -/
theorem labelBlock_read (t : Fin cfg0.N) (A : IVec S65536x1 32) (k : Fin 4096) :
    (((cfg0.win 1).blk t).view.read (Elt F) A : IVec S4096x1 32) (ix2 k (0 : Fin 1)) = A (ix2 (rowAt t k) (0 : Fin 1)) := by
  rw [View.read_apply]
  refine congrArg A ?_
  funext a
  refine Fin.ext ?_
  match a with
  | ⟨0, _⟩ =>
    show win0_1.index t 0 * 4096 + 1 * k.val = 4096 * (t.val % 16) + k.val
    rw [(labelIndex t).1]; omega
  | ⟨1, _⟩ =>
    show win0_1.index t 1 * 1 + 1 * 0 = 0
    rw [(labelIndex t).2]

/-- The count window's block at any point is the whole column. -/
theorem countBlock_read (t : Fin cfg0.N) (A : FVec F S128x1 .f32) (cl : Fin 128) :
    (((cfg0.win 2).blk t).view.read (Elt F) A : FVec F S128x1 .f32) (ix2 cl (0 : Fin 1)) = A (ix2 cl (0 : Fin 1)) := by
  rw [View.read_apply]
  refine congrArg A ?_
  funext a
  refine Fin.ext ?_
  match a with
  | ⟨0, _⟩ =>
    show win0_2.index t 0 * 128 + 1 * cl.val = cl.val
    rw [(countIndex t).1]; omega
  | ⟨1, _⟩ =>
    show win0_2.index t 1 * 1 + 1 * 0 = 0
    rw [(countIndex t).2]

/-- The region finds the labels as a column: the label vector reshaped. -/
theorem labels_col (c : Dev nD) :
    (V m c main_v5 : IVec S65536x1 32) = shapeCast S65536x1 (m ((c : Thread nD τ).loc main_arg1)) shapeCasts_S65536_S65536x1 := by
  show StableHlo.after hostOps0 (fun b => m (c, b)) (Proc.devRef .tc main_v5) = _
  after_results
  rfl

/-- The region finds the class counts as a column: ones added by label into 128 zeroed entries, reshaped. -/
theorem counts_col (c : Dev nD) :
    (V m c main_v4 : FVec F S128x1 .f32) = shapeCast S128x1
      (Host.scatterAdd scatter_S128_S65536x1_S65536_n_0_0_1
        (broadcastInDim S128 ![] bcast_S_S128 (constant (F := F) S_ .f32 0x00000000#32))
        (broadcastInDim S65536x1 ![0] bcast_S65536_S65536x1_0 (m ((c : Thread nD τ).loc main_arg1)))
        (broadcastInDim S65536 ![] bcast_S_S65536 (constant (F := F) S_ .f32 0x3F800000#32)))
      shapeCasts_S128_S128x1 := by
  show StableHlo.after hostOps0 (fun b => m (c, b)) (Proc.devRef .tc main_v4) = _
  after_results
  rfl

/-- A vector reshaped to a column reads, at row n, the vector's entry n. -/
theorem column_apply {α : Type} {N : Nat} (x : (⟨1, ![N]⟩ : Shape).Idx → α)
    (h : (⟨1, ![N]⟩ : Shape).ShapeCasts ⟨2, ![N, 1]⟩) (n : Fin N) :
    shapeCast ⟨2, ![N, 1]⟩ x h (ix2 n (0 : Fin 1)) = x (ix1 n) := by
  refine shapeCast_apply x h _ _ ?_
  rw [Shape.rowMajor_val_one, Shape.rowMajor_val_two]
  show n.val = n.val * 1 + 0
  omega

end AnyInstance

section AtIdeal
variable (m : (ℓ : Loc nD τ sig) → Buf (Elt Ideal) ℓ)

/-- The 128 entries the counts start from are zero. -/
theorem zeros128_apply (cl : Fin 128) :
    (broadcastInDim S128 ![] bcast_S_S128 (constant (F := Ideal) S_ .f32 0x00000000#32) (ix1 cl) : EReal) = 0 := by
  rw [broadcastInDim_apply _ bcast_S_S128 (constant (F := Ideal) S_ .f32 0x00000000#32) (ix1 cl) (fun a => a.elim0)
    (fun a => a.elim0)]
  show Ideal.ofBits .f32 0x00000000#32 = 0
  exact Ideal.ofBits_zero_f32

/-- Every sample contributes a one. -/
theorem ones_apply (n : Fin 65536) :
    (broadcastInDim S65536 ![] bcast_S_S65536 (constant (F := Ideal) S_ .f32 0x3F800000#32) (ix1 n) : EReal) = 1 := by
  rw [broadcastInDim_apply _ bcast_S_S65536 (constant (F := Ideal) S_ .f32 0x3F800000#32) (ix1 n) (fun a => a.elim0)
    (fun a => a.elim0)]
  show Ideal.ofBits .f32 0x3F800000#32 = 1
  exact Ideal.ofBits_one_f32

/-- The label vector spread along a new second axis reads, at row n, label n. -/
theorem labelSpread_apply (L : IVec S65536 32) (n : Fin 65536) :
    broadcastInDim S65536x1 ![0] bcast_S65536_S65536x1_0 L (ix2 n (0 : Fin 1)) = L (ix1 n) :=
  broadcastInDim_apply _ bcast_S65536_S65536x1_0 L (ix2 n (0 : Fin 1)) (ix1 n) (fun a => match a with
    | ⟨0, _⟩ => by show n.val = if (65536 : Nat) = 1 then 0 else n.val; rw [if_neg (by decide)])

/-- The features the body reads at point t. -/
theorem featBlock_apply (c : Dev nD) (t : Fin cfg0.N) (k : Fin 4096) (d : Fin 512) :
    (iblk m c 0 t : FVec Ideal S4096x512 .f32) (ix2 k d)
      = (m ((c : Thread nD τ).loc main_arg0) : FVec Ideal S65536x1024 .f32) (ix2 (rowAt t k) (colAt t d)) := by
  show (((cfg0.win 0).blk t).view.read (Elt Ideal) (V m c main_arg0) : FVec Ideal S4096x512 .f32) (ix2 k d) = _
  refine (featBlock_read (F := Ideal) t (V m c main_arg0) k d).trans ?_
  rw [V_main_arg0]

/-- The labels the body reads at point t. -/
theorem labelBlock_apply (c : Dev nD) (t : Fin cfg0.N) (k : Fin 4096) :
    (iblk m c 1 t : IVec S4096x1 32) (ix2 k (0 : Fin 1))
      = (m ((c : Thread nD τ).loc main_arg1) : IVec S65536 32) (ix1 (rowAt t k)) := by
  show (((cfg0.win 1).blk t).view.read (Elt Ideal) (V m c main_v5) : IVec S4096x1 32) (ix2 k (0 : Fin 1)) = _
  rw [labelBlock_read t (V m c main_v5) k, labels_col, column_apply]

/-- The class counts the body reads at any point: entry c is the class's count. -/
theorem countBlock_apply (c : Dev nD) (t : Fin cfg0.N) (cl : Fin 128) :
    ((iblk m c 2 t : FVec Ideal S128x1 .f32) (ix2 cl (0 : Fin 1)) : EReal)
      = count (m ((c : Thread nD τ).loc main_arg1) : IVec S65536 32) cl.val := by
  show ((((cfg0.win 2).blk t).view.read (Elt Ideal) (V m c main_v4) : FVec Ideal S128x1 .f32) (ix2 cl (0 : Fin 1)) : EReal) = _
  refine (congrArg (fun v : Ideal .f32 => (v : EReal)) (countBlock_read (F := Ideal) t (V m c main_v4) cl)).trans ?_
  rw [counts_col, column_apply]
  show Ideal.hostScatterAdd scatter_S128_S65536x1_S65536_n_0_0_1 _ _ _ (ix1 cl) = _
  rw [Landing.scatterAdd_scalar_apply _ rfl rfl rfl rfl]
  rw [zeros128_apply, zero_add]
  unfold count members
  refine Finset.sum_congr (Finset.filter_congr fun n _ => ?_) fun n _ => ones_apply n
  rw [labelSpread_apply]

end AtIdeal

end ClassSpread.Kernel

end
-- ==== Proof.KerFold.lean ====
/-
  Sixteen block sums in order are one sum over all samples, and a one-hot weight picks out a class.

  Write upTo f b for the sum of f over the samples numbered below b. It starts at 0, and adding the next block's terms to upTo f a
  gives upTo f (a + block length); taken up to the number of samples it is the sum over all of them.
  A label word equals the 32-bit word of a lane number c < 128 exactly when it reads c as a signed integer, so a sum
  weighted by the one-hot entry of lane c is the sum over the members of class c.
-/
import proofs.«416717_j18863496364161_3_alg».proof.Proof.Spec
import proofs.«416717_j18863496364161_3_alg».proof.Proof.KerPayloads
import Mathlib.Algebra.BigOperators.Intervals
import Mathlib.Algebra.BigOperators.Fin

noncomputable section

open scoped BigOperators

namespace ClassSpread.Kernel

open Idealize.ShloMosaic Idealize.ShloMosaic.ValueIdx

/-- The sum of f over the samples numbered below b. -/
def upTo {N : ℕ} (f : Fin N → EReal) (b : ℕ) : EReal :=
  ∑ i ∈ Finset.range b, if h : i < N then f ⟨i, h⟩ else 0

theorem upTo_zero {N : ℕ} (f : Fin N → EReal) : upTo f 0 = 0 := by
  unfold upTo; rw [Finset.range_zero, Finset.sum_empty]

/-- Adding the next b terms after the first a. -/
theorem upTo_add {N : ℕ} (f : Fin N → EReal) (a b : ℕ) (h : a + b ≤ N) :
    upTo f a + ∑ k : Fin b, f ⟨a + k.val, by have := k.isLt; omega⟩ = upTo f (a + b) := by
  unfold upTo
  rw [Finset.sum_range_add, Finset.sum_range (fun x => if h : a + x < N then f ⟨a + x, h⟩ else 0)]
  congr 1
  refine Finset.sum_congr rfl fun k _ => ?_
  rw [dif_pos (by have := k.isLt; omega)]

/-- After all of them. -/
theorem upTo_all {N : ℕ} (f : Fin N → EReal) : upTo f N = ∑ n : Fin N, f n := by
  unfold upTo
  rw [Finset.sum_range (fun i => if h : i < N then f ⟨i, h⟩ else 0)]
  refine Finset.sum_congr rfl fun n _ => ?_
  rw [dif_pos n.isLt]

/-- Lane c's 32-bit word reads c as a signed integer. -/
theorem laneWord_toInt (c : Fin 128) : (BitVec.ofNat 32 c.val).toInt = (c.val : ℤ) := by
  have hc := c.isLt
  have hn : (BitVec.ofNat 32 c.val).toNat = c.val := by
    rw [BitVec.toNat_ofNat]; exact Nat.mod_eq_of_lt (by norm_num; omega)
  rw [BitVec.toInt_eq_toNat_of_lt (by rw [hn]; norm_num; omega), hn]

/-- A label word is lane c's word exactly when it reads c as a signed integer. -/
theorem laneWord_iff (l : BitVec 32) (c : Fin 128) : BitVec.ofNat 32 c.val = l ↔ l.toInt = (c.val : ℤ) := by
  constructor
  · rintro rfl
    exact laneWord_toInt c
  · intro h
    exact (BitVec.eq_of_toInt_eq (h.trans (laneWord_toInt c).symm)).symm

/-- A sum weighted by lane c's one-hot entries is the sum over the members of class c. -/
theorem onehot_sum (lbl : SL.Idx → BitVec 32) (c : Fin 128) (g : Fin 65536 → EReal) :
    ∑ n : Fin 65536, onehot (lbl (ix1 n)) c * g n = ∑ n ∈ members lbl c.val, g n := by
  unfold members
  rw [Finset.sum_filter]
  refine Finset.sum_congr rfl fun n _ => ?_
  unfold onehot
  by_cases h : (lbl (ix1 n)).toInt = (c.val : ℤ)
  · rw [if_pos ((laneWord_iff _ c).mpr h), if_pos h, one_mul]
  · rw [if_neg (fun e => h ((laneWord_iff _ c).mp e)), if_neg h, zero_mul]

end ClassSpread.Kernel

end
-- ==== Proof.KerInduction.lean ====
/-
  What the two accumulators hold after each grid point, and the number a tile's last point writes.

  Point t works on feature tile t / 16 and sample block t % 16. By induction on t: after point t the sum accumulator
  holds at (c, d) the one-hot-weighted sum of feature 512 (t / 16) + d over the samples of blocks 0 … t % 16, and the
  square accumulator the same with the feature squared. At a tile's first block the accumulators are cleared first, so
  the sum starts from nothing; at any other block the point before belongs to the same tile and the new block's terms
  are added to what it left. After a tile's last block the sums run over all samples, which makes them the class
  totals, and the number written is the tile's clamped terms added over the 128 class lanes and 512 features.
-/
import proofs.«416717_j18863496364161_3_alg».proof.Proof.KerPieces
import proofs.«416717_j18863496364161_3_alg».proof.Proof.KerPayloads
import proofs.«416717_j18863496364161_3_alg».proof.Proof.KerTile
import proofs.«416717_j18863496364161_3_alg».proof.Proof.KerArrays
import proofs.«416717_j18863496364161_3_alg».proof.Proof.KerFold

set_option maxRecDepth 16384

noncomputable section

open scoped BigOperators

open Idealize.ShloMosaic Idealize.ShloMosaic.TcCoe Idealize.SL.Sem Idealize.ShloMosaic.ValueIdx

namespace ClassSpread.Kernel

open Cert.KernelIdeal Cert.KernelIdeal.Gen

variable (m : (ℓ : Loc nD τ sig) → Buf (Elt Ideal) ℓ)

/-- The feature matrix the program was launched with. -/
abbrev feats (c : Dev nD) : FVec Ideal S65536x1024 .f32 := m ((c : Thread nD τ).loc main_arg0)
/-- The label vector the program was launched with. -/
abbrev labels (c : Dev nD) : IVec S65536 32 := m ((c : Thread nD τ).loc main_arg1)

/-- Sample n's term of class lane cl and feature col in the sum accumulator. -/
def sumTerm (c : Dev nD) (cl : Fin 128) (col : Fin 1024) (n : Fin 65536) : EReal :=
  onehot (labels m c (ix1 n)) cl * (feats m c (ix2 n col) : EReal)

/-- Sample n's term of class lane cl and feature col in the square accumulator. -/
def sqTerm (c : Dev nD) (cl : Fin 128) (col : Fin 1024) (n : Fin 65536) : EReal :=
  onehot (labels m c (ix1 n)) cl * ((feats m c (ix2 n col) : EReal) * (feats m c (ix2 n col) : EReal))

/-- A block's contribution to the sum accumulator at (cl, d), for a feature block x0 and a label block x1 that are
    point t's blocks of the launched arrays. -/
theorem blockSum (c : Dev nD) (t : Fin cfg0.N) (cl : Fin 128) (d : Fin 512)
    (x0 : FVec Ideal S4096x512 .f32) (x1 : IVec S4096x1 32)
    (h0 : ∀ k : Fin 4096, x0 (ix2 k d) = feats m c (ix2 (rowAt t k) (colAt t d)))
    (h1 : ∀ k : Fin 4096, x1 (ix2 k (0 : Fin 1)) = labels m c (ix1 (rowAt t k))) :
    ∑ k : Fin 4096, onehot (x1 (ix2 k (0 : Fin 1))) cl * (x0 (ix2 k d) : EReal)
      = ∑ k : Fin 4096, sumTerm m c cl (colAt t d) (rowAt t k) :=
  Finset.sum_congr rfl fun k _ => by rw [h0 k, h1 k]; rfl

/-- A block's contribution to the square accumulator at (cl, d), likewise. -/
theorem blockSq (c : Dev nD) (t : Fin cfg0.N) (cl : Fin 128) (d : Fin 512)
    (x0 : FVec Ideal S4096x512 .f32) (x1 : IVec S4096x1 32)
    (h0 : ∀ k : Fin 4096, x0 (ix2 k d) = feats m c (ix2 (rowAt t k) (colAt t d)))
    (h1 : ∀ k : Fin 4096, x1 (ix2 k (0 : Fin 1)) = labels m c (ix1 (rowAt t k))) :
    ∑ k : Fin 4096, onehot (x1 (ix2 k (0 : Fin 1))) cl * ((x0 (ix2 k d) : EReal) * (x0 (ix2 k d) : EReal))
      = ∑ k : Fin 4096, sqTerm m c cl (colAt t d) (rowAt t k) :=
  Finset.sum_congr rfl fun k _ => by rw [h0 k, h1 k]; rfl

/-- The statement carried through the grid: both accumulators after point n. -/
def Holds (c : Dev nD) (n : ℕ) (hn : n < cfg0.N) : Prop :=
  (∀ (cl : Fin 128) (d : Fin 512),
      ((outsAt0 m c n hn).2.1 (ix2 cl d) : EReal)
        = upTo (sumTerm m c cl (colAt ⟨n, hn⟩ d)) (4096 * (n % 16 + 1)))
  ∧ ∀ (cl : Fin 128) (d : Fin 512),
      ((outsAt0 m c n hn).2.2 (ix2 cl d) : EReal)
        = upTo (sqTerm m c cl (colAt ⟨n, hn⟩ d)) (4096 * (n % 16 + 1))

/-- The block sum of point t, as the step of `upTo`. -/
theorem rows_step (f : Fin 65536 → EReal) (t : Fin cfg0.N) :
    upTo f (4096 * (t.val % 16)) + ∑ k : Fin 4096, f (rowAt t k) = upTo f (4096 * (t.val % 16 + 1)) := by
  rw [Nat.mul_succ]
  exact upTo_add f (4096 * (t.val % 16)) 4096 (by have := Nat.mod_lt t.val (show 16 > 0 by decide); omega)

theorem holds_first (c : Dev nD) (t : Fin cfg0.N) (h0 : t.val % 16 = 0) : Holds m c t.val t.isLt := by
  have h1 : ¬t.val % 16 = 15 := by omega
  have hA := outsAt0_A m c t h0 h1
  have e : (⟨t.val, t.isLt⟩ : Fin cfg0.N) = t := rfl
  refine ⟨fun cl d => ?_, fun cl d => ?_⟩
  · rw [hA]; dsimp only
    rw [e]
    refine (congrArg (fun v : FVec Ideal S128x512 .f32 => (v (ix2 cl d) : EReal))
      (sumAcc_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t))).trans ?_
    refine (sumUpdate_apply (iblk m c 0 t) (iblk m c 1 t) (k0_pay1 (F := Ideal)) cl d).trans ?_
    rw [clearSum_apply, blockSum m c t cl d (iblk m c 0 t) (iblk m c 1 t) (fun k => featBlock_apply m c t k d) (fun k => labelBlock_apply m c t k), ← rows_step _ t, h0, Nat.mul_zero, upTo_zero]
  · rw [hA]; dsimp only
    rw [e]
    refine (congrArg (fun v : FVec Ideal S128x512 .f32 => (v (ix2 cl d) : EReal))
      (sqAcc_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t))).trans ?_
    refine (sqUpdate_apply (iblk m c 0 t) (iblk m c 1 t) (k0_pay2 (F := Ideal)) cl d).trans ?_
    rw [clearSq_apply, blockSq m c t cl d (iblk m c 0 t) (iblk m c 1 t) (fun k => featBlock_apply m c t k d) (fun k => labelBlock_apply m c t k), ← rows_step _ t, h0, Nat.mul_zero, upTo_zero]

/-- The point before a point that is not a tile's first lies in the same tile, one sample block earlier. -/
theorem holds_next (c : Dev nD) (t : Fin cfg0.N) (h0 : ¬t.val % 16 = 0)
    (ih : Holds m c (t.val - 1) (Nat.lt_of_le_of_lt (Nat.sub_le _ _) t.isLt)) : Holds m c t.val t.isLt := by
  have e : (⟨t.val, t.isLt⟩ : Fin cfg0.N) = t := rfl
  have hcol : ∀ d : Fin 512,
      colAt (⟨t.val - 1, Nat.lt_of_le_of_lt (Nat.sub_le _ _) t.isLt⟩ : Fin cfg0.N) d = colAt t d := fun d =>
    Fin.ext (by show 512 * ((t.val - 1) / 16) + d.val = 512 * (t.val / 16) + d.val; omega)
  have hrow : 4096 * ((t.val - 1) % 16 + 1) = 4096 * (t.val % 16) := by omega
  by_cases h1 : t.val % 16 = 15
  · have hC := outsAt0_C m c t h0 h1
    refine ⟨fun cl d => ?_, fun cl d => ?_⟩
    · rw [hC]; dsimp only
      rw [e]
      refine (congrArg (fun v : FVec Ideal S128x512 .f32 => (v (ix2 cl d) : EReal))
        (sumAcc_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)).trans ?_
      refine (sumUpdate_apply (iblk m c 0 t) (iblk m c 1 t) (outsAt0 m c (t.val - 1) (Nat.lt_of_le_of_lt (Nat.sub_le _ _) t.isLt)).2.1 cl d).trans ?_
      rw [ih.1 cl d, hcol d, hrow, blockSum m c t cl d (iblk m c 0 t) (iblk m c 1 t) (fun k => featBlock_apply m c t k d) (fun k => labelBlock_apply m c t k), rows_step _ t]
    · rw [hC]; dsimp only
      rw [e]
      refine (congrArg (fun v : FVec Ideal S128x512 .f32 => (v (ix2 cl d) : EReal))
        (sqAcc_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)).trans ?_
      refine (sqUpdate_apply (iblk m c 0 t) (iblk m c 1 t) (outsAt0 m c (t.val - 1) (Nat.lt_of_le_of_lt (Nat.sub_le _ _) t.isLt)).2.2 cl d).trans ?_
      rw [ih.2 cl d, hcol d, hrow, blockSq m c t cl d (iblk m c 0 t) (iblk m c 1 t) (fun k => featBlock_apply m c t k d) (fun k => labelBlock_apply m c t k), rows_step _ t]
  · have hB := outsAt0_B m c t h0 h1
    refine ⟨fun cl d => ?_, fun cl d => ?_⟩
    · rw [hB]; dsimp only
      rw [e]
      refine (congrArg (fun v : FVec Ideal S128x512 .f32 => (v (ix2 cl d) : EReal))
        (sumAcc_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)).trans ?_
      refine (sumUpdate_apply (iblk m c 0 t) (iblk m c 1 t) (outsAt0 m c (t.val - 1) (Nat.lt_of_le_of_lt (Nat.sub_le _ _) t.isLt)).2.1 cl d).trans ?_
      rw [ih.1 cl d, hcol d, hrow, blockSum m c t cl d (iblk m c 0 t) (iblk m c 1 t) (fun k => featBlock_apply m c t k d) (fun k => labelBlock_apply m c t k), rows_step _ t]
    · rw [hB]; dsimp only
      rw [e]
      refine (congrArg (fun v : FVec Ideal S128x512 .f32 => (v (ix2 cl d) : EReal))
        (sqAcc_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)).trans ?_
      refine (sqUpdate_apply (iblk m c 0 t) (iblk m c 1 t) (outsAt0 m c (t.val - 1) (Nat.lt_of_le_of_lt (Nat.sub_le _ _) t.isLt)).2.2 cl d).trans ?_
      rw [ih.2 cl d, hcol d, hrow, blockSq m c t cl d (iblk m c 0 t) (iblk m c 1 t) (fun k => featBlock_apply m c t k d) (fun k => labelBlock_apply m c t k), rows_step _ t]

/-- Both accumulators after every grid point: by induction on the point. -/
theorem holds_all (c : Dev nD) : ∀ (n : ℕ) (hn : n < cfg0.N), Holds m c n hn
  | 0, hn => holds_first m c ⟨0, hn⟩ rfl
  | n + 1, hn => by
    by_cases h0 : (n + 1) % 16 = 0
    · exact holds_first m c ⟨n + 1, hn⟩ h0
    · exact holds_next m c ⟨n + 1, hn⟩ h0 (holds_all c n (Nat.lt_of_succ_lt hn))

/-- After a tile's last block the sum accumulator holds the class totals of the tile's features. -/
theorem sumAcc_last (c : Dev nD) (t : Fin cfg0.N) (h1 : t.val % 16 = 15) (cl : Fin 128) (d : Fin 512) :
    ((outsAt0 m c t.val t.isLt).2.1 (ix2 cl d) : EReal) = total (feats m c) (labels m c) cl.val (colAt t d) := by
  rw [(holds_all m c t.val t.isLt).1 cl d, h1, show 4096 * (15 + 1) = 65536 from rfl, upTo_all]
  exact onehot_sum (labels m c) cl fun n => (feats m c (ix2 n (colAt t d)) : EReal)

/-- After a tile's last block the square accumulator holds the class totals of squares of the tile's features. -/
theorem sqAcc_last (c : Dev nD) (t : Fin cfg0.N) (h1 : t.val % 16 = 15) (cl : Fin 128) (d : Fin 512) :
    ((outsAt0 m c t.val t.isLt).2.2 (ix2 cl d) : EReal) = totalSq (feats m c) (labels m c) cl.val (colAt t d) := by
  rw [(holds_all m c t.val t.isLt).2 cl d, h1, show 4096 * (15 + 1) = 65536 from rfl, upTo_all]
  exact onehot_sum (labels m c) cl fun n =>
    (feats m c (ix2 n (colAt t d)) : EReal) * (feats m c (ix2 n (colAt t d)) : EReal)

/-- The number a tile's last point writes: the tile's clamped terms added over class lanes and features. -/
theorem tileNumber (c : Dev nD) (t : Fin cfg0.N) (h1 : t.val % 16 = 15) (j : S1x1x1.Idx) :
    ((outsAt0 m c t.val t.isLt).1 j : EReal)
      = ∑ cl : Fin 128, ∑ d : Fin 512, clampedTerm (feats m c) (labels m c) cl.val (colAt t d) := by
  have h0 : ¬t.val % 16 = 0 := by omega
  have hC := outsAt0_C m c t h0 h1
  have hout : (outsAt0 m c t.val t.isLt).1
      = k0_pay7 (F := Ideal) (iblk m c 2 t) (outsAt0 m c t.val t.isLt).2.1 (outsAt0 m c t.val t.isLt).2.2 := by
    rw [hC]; dsimp only
    rw [tile_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
      sumAcc_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
      sqAcc_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2]
  rw [hout]
  refine (tileNumber_apply (iblk m c 2 t) (outsAt0 m c t.val t.isLt).2.1 (outsAt0 m c t.val t.isLt).2.2 j).trans ?_
  refine Finset.sum_congr rfl fun cl _ => Finset.sum_congr rfl fun d _ => ?_
  rw [sumAcc_last m c t h1 cl d, sqAcc_last m c t h1 cl d, countBlock_apply m c t cl]
  rfl

end ClassSpread.Kernel

end
-- ==== Proof.KerRun.lean ====
/-
  The 128-class program ends with the clamped spread in its result.

  Its pipeline writes one number per feature tile into an array of two entries: tile T's number at the last sample
  block of tile T (grid point 16 T + 15), nothing at the other points. Those two points' one-entry blocks cover the
  array, so it ends holding the two tile numbers, and the last host operation adds them up starting from zero. Two
  tiles of 512 features, 128 class lanes each: that is the clamped spread.
-/
import proofs.«416717_j18863496364161_3_alg».proof.Proof.KerInduction
import proofs.«416717_j18863496364161_3_alg».proof.Proof.Spec
import Idealize.ShloMosaic.Lib.Pipeline.Value
import Idealize.ShloMosaic.Lib.StableHlo.Run

set_option maxRecDepth 16384

noncomputable section

open scoped BigOperators

open Idealize.ShloMosaic Idealize.ShloMosaic.TcCoe Idealize.SL.Sem Idealize.ShloMosaic.ValueIdx

namespace ClassSpread.Kernel

open Cert.KernelIdeal Cert.KernelIdeal.Gen

variable (m : (ℓ : Loc nD τ sig) → Buf (Elt Ideal) ℓ) (ρ : Dev nD → PrngReg)

/-- Tile T's number: its clamped terms added over class lanes and the tile's features. -/
def tileSum (c : Dev nD) (T : Fin 2) : EReal :=
  ∑ cl : Fin 128, ∑ d : Fin 512, clampedTerm (feats m c) (labels m c) cl.val (col T d)

/-- The array of the two tile numbers. -/
def tiles (c : Dev nD) : FVec Ideal S2x1x1 .f32 := fun j => tileSum m c ⟨(j 0).val, (j 0).isLt⟩

/-- The output window's block index at point t: (feature tile, 0, 0). -/
theorem outIndex : ∀ t : Fin cfg0.N, win0_3.index t (0 : Fin 3) = t.val / 16 ∧ win0_3.index t (1 : Fin 3) = 0
    ∧ win0_3.index t (2 : Fin 3) = 0 :=
  (by decide +kernel : ∀ t : Fin grid0.N, _)

/-- What a tile's last point writes back is that tile's entry of the array of tile numbers. -/
theorem flushed_eq (c : Dev nD) (t : Fin cfg0.N) (hf : (cfg0.win 3).flush t = true) :
    (dats m 0 c).flushed 3 t = ((cfg0.win 3).blk t).view.read (Elt Ideal) (tiles m c) := by
  have h1 : t.val % 16 = 15 := (flush0_3 t).mp hf
  show (cfg0.win 3).cut (grid0.coords t) ((dats m 0 c).after 3 t) = _
  rw [after0_3]
  funext j
  show ((outsAt0 m c t.val t.isLt).1 j : EReal) = tiles m c (((cfg0.win 3).blk t).view.emb j)
  rw [tileNumber m c t h1 j]
  unfold tiles tileSum
  refine Finset.sum_congr rfl fun cl _ => Finset.sum_congr rfl fun d _ => ?_
  congr 1
  refine Fin.ext ?_
  show 512 * (t.val / 16) + d.val = 512 * (win0_3.index t 0 * 1 + 1 * (j 0).val) + d.val
  have hj : (j 0).val < 1 := (j 0).isLt
  rw [(outIndex t).1]; omega

/-- An entry of the array lies in point t's block iff each coordinate is in the block's range. -/
theorem mem_blk (t : Fin cfg0.N) (i : S2x1x1.Idx) :
    i ∈ ((cfg0.win 3).blk t).view.set ↔ ∀ a : Fin 3, win0_3.index t a * S1x1x1.size a ≤ (i a).val
      ∧ (i a).val < win0_3.index t a * S1x1x1.size a + S1x1x1.size a := by
  show i ∈ ((View.whole main_v6).slice (win0_3.rect t)).set ↔ _
  rw [View.set_slice_whole, Rect.mem_set_unit]
  exact Iff.rfl

/-- The array after the run: the two tile numbers. -/
theorem final (c : Dev nD) : (dats m 0 c).arrAt 3 cfg0.N = tiles m c :=
  (dats m 0 c).arrAt_eq_of_cover 3 (tiles m c) (fun t hf => flushed_eq m c t hf) fun i => by
    have hi0 : (i 0).val < 2 := (i 0).isLt
    have hi1 : (i 1).val < 1 := (i 1).isLt
    have hi2 : (i 2).val < 1 := (i 2).isLt
    have hN := gridN
    refine ⟨⟨16 * (i 0).val + 15, by omega⟩, (flush0_3 _).mpr (by show (16 * (i 0).val + 15) % 16 = 15; omega), ?_⟩
    rw [mem_blk]
    obtain ⟨e0, e1, e2⟩ := outIndex ⟨16 * (i 0).val + 15, by omega⟩
    intro a
    match a with
    | ⟨0, _⟩ =>
      show win0_3.index _ (0 : Fin 3) * 1 ≤ (i 0).val ∧ (i 0).val < win0_3.index _ (0 : Fin 3) * 1 + 1
      rw [e0]; show (16 * (i 0).val + 15) / 16 * 1 ≤ (i 0).val ∧ (i 0).val < (16 * (i 0).val + 15) / 16 * 1 + 1; omega
    | ⟨1, _⟩ =>
      show win0_3.index _ (1 : Fin 3) * 1 ≤ (i 1).val ∧ (i 1).val < win0_3.index _ (1 : Fin 3) * 1 + 1
      rw [e1]; omega
    | ⟨2, _⟩ =>
      show win0_3.index _ (2 : Fin 3) * 1 ≤ (i 2).val ∧ (i 2).val < win0_3.index _ (2 : Fin 3) * 1 + 1
      rw [e2]; omega

/-- The two entries of the array of tile numbers, numbered by their tile. -/
def tileIdx : Fin 2 ≃ S2x1x1.Idx where
  toFun T := ix3 T (0 : Fin 1) (0 : Fin 1)
  invFun j := ⟨(j 0).val, (j 0).isLt⟩
  left_inv _ := rfl
  right_inv j := by
    funext a
    match a with
    | ⟨0, _⟩ => rfl
    | ⟨1, _⟩ => exact Fin.ext (by have : (j 1).val < 1 := (j 1).isLt; show 0 = (j 1).val; omega)
    | ⟨2, _⟩ => exact Fin.ext (by have : (j 2).val < 1 := (j 2).isLt; show 0 = (j 2).val; omega)

/-- The result after the last host operation: the two tile numbers added up from zero. -/
theorem tail (c : Dev nD) :
    Pipeline.afterTail₀ cfgs (dats m) 0 (V0 m) [hostOps1] c main_v7
      = (fun _ => clampedSpread (feats m c) (labels m c)) := by
  unfold Pipeline.afterTail₀
  show StableHlo.after hostOps1 _ (Proc.devRef .tc main_v7) = _
  after_results
  have hw : Pipeline.withArrays (cfgs 0).spec c (V0 m c) (fun w => (dats m 0 c).arrAt w (cfgs 0).N)
      (Proc.devRef .tc main_v6) = tiles m c :=
    (Pipeline.withArrays_arr spec0 launch0.win.arr_inj c _ _ 3).trans (final m c)
  rw [hw]
  funext i
  show Ideal.hostReduceAdd reducesTo_S2x1x1_S_d0_1_2 (tiles m c) (Ideal.ofBits .f32 0x00000000#32) i = _
  rw [Ideal.hostReduceAdd_total reducesTo_S2x1x1_S_d0_1_2 (fun b => b.elim0) (tiles m c) _ i, Ideal.ofBits_zero_f32,
    zero_add, ← Fintype.sum_equiv tileIdx (fun T => tileSum m c T) (tiles m c) (fun T => rfl)]
  rfl

/-- Every weakly fair execution ends with the result at the clamped spread of the two arguments, which are left as
    they were. -/
theorem run :
    θ_run (defs (F := Ideal)) (onTc (τ := τ) (main (F := Ideal))) ⟨m, fun _ => 0, ρ⟩ (fun r => ∀ c : Dev nD,
      r.2.mem ((c.tc : Thread nD τ).loc main_v7)
          = (fun _ => clampedSpread (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v7 (Pipeline.mem_restRefs_of main_v7 (by decide) (by decide))).trans (tail m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end ClassSpread.Kernel

end
-- ==== Proof.lean ====
/-
  A per-class spread of 65536 labelled samples with 1024 features, computed two ways.

  The kernel counts 128 classes (ten real ones padded to a lane width), accumulates per class and feature the sum and
  the sum of squares of the features by two matrix products with the one-hot label matrix, sixteen sample blocks
  after one another for each of two feature tiles, and at a tile's last block adds up
  max (sum of squares / k - (sum / k)², 0) over classes and the tile's features, k the class count or one; the host
  adds the two tiles. The reference counts 10 classes and adds up, over classes and features, the mean over the class
  of the squared distance from the class mean. (Proof/Spec.lean writes both as functions of the arguments.)

  The precondition says that every feature is finite and every label is below 10. Then both results are the same
  extended real: for a class of k ≥ 1 reals with sum S and sum of squares Q the centred squares add up to Q - S²/k, so
  their mean is Q/k - (S/k)², which is ≥ 0 and so untouched by the clamp; an empty class gives 0 either way; and
  with no label at 10 or above the 118 padding classes are empty (Proof/Variance.lean, Proof/Bridge.lean). A negative
  label belongs to no class in either program. Finiteness is used: the identity distributes and cancels, which fails
  at an infinity.

  The three frames: the two kernel programs run by their generated frame certificates; the reference has no kernel,
  and its frame is its generated run with the result forgotten. The idealization rewrote nothing, so there is nothing
  to preserve.
-/
import proofs.«416717_j18863496364161_3_alg».proof.Defs
import proofs.«416717_j18863496364161_3_alg».proof.Proof.Gen.Kernel
import proofs.«416717_j18863496364161_3_alg».proof.Proof.Gen.Kernel.Skeleton
import proofs.«416717_j18863496364161_3_alg».proof.Proof.Gen.Kernel.Launch
import proofs.«416717_j18863496364161_3_alg».proof.Proof.Gen.Kernel.Points
import proofs.«416717_j18863496364161_3_alg».proof.Proof.Gen.Kernel.Frame
import proofs.«416717_j18863496364161_3_alg».proof.Proof.Gen.KernelIdeal
import proofs.«416717_j18863496364161_3_alg».proof.Proof.Gen.KernelIdeal.Skeleton
import proofs.«416717_j18863496364161_3_alg».proof.Proof.Gen.KernelIdeal.Launch
import proofs.«416717_j18863496364161_3_alg».proof.Proof.Gen.KernelIdeal.Points
import proofs.«416717_j18863496364161_3_alg».proof.Proof.Gen.KernelIdeal.Frame
import proofs.«416717_j18863496364161_3_alg».proof.Proof.Gen.ReferenceIdeal
import proofs.«416717_j18863496364161_3_alg».proof.Proof.Gen.ReferenceIdeal.Run
import proofs.«416717_j18863496364161_3_alg».proof.Proof.Gen.ReferenceIdeal.Read
import proofs.«416717_j18863496364161_3_alg».proof.Proof.Gen.Pre_finite_inputs
import proofs.«416717_j18863496364161_3_alg».proof.Proof.Spec
import proofs.«416717_j18863496364161_3_alg».proof.Proof.Bridge
import proofs.«416717_j18863496364161_3_alg».proof.Proof.Domain
import proofs.«416717_j18863496364161_3_alg».proof.Proof.RefValue
import proofs.«416717_j18863496364161_3_alg».proof.Proof.KerRun
import Idealize.ShloMosaic.Adequacy
import Idealize.ShloMosaic.Init

noncomputable section

namespace Cert.Proof

open Idealize.ShloMosaic Idealize.SL.Sem

/-- Both idealized programs end with the same number: the kernel with the clamped spread, the reference with the
    centred spread, of arguments that agree, are real and carry labels below 10. -/
theorem algebraic : Cert.algebraic_KernelIdeal_ReferenceIdeal := by
  intro m ρ m' ρ' hpre hagree
  refine ⟨_, ClassSpread.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, ClassSpread.Reference.value, (hagree c).1, (hagree c).2]
  obtain ⟨hx, hl⟩ := ClassSpread.Domain.of_pre _ _ (hpre c)
  funext _
  exact (ClassSpread.spreads_agree _ _ hx hl).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
